-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_

variable [Facts]

def fn {F : FTy → Type} [FloatOps F] (main_arg0 : FVec F S10000x128 .f32) (main_arg1 : FVec F S10000x10000 .f32) (main_arg2 : FVec F S128x32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x32 : Shape := ⟨2, ![128, 32]⟩
abbrev S2x5000x32 : Shape := ⟨3, ![2, 5000, 32]⟩
abbrev S10000x32 : Shape := ⟨2, ![10000, 32]⟩
abbrev S200x10000 : Shape := ⟨2, ![200, 10000]⟩
abbrev S2x200x32 : Shape := ⟨3, ![2, 200, 32]⟩
abbrev S200x32 : Shape := ⟨2, ![200, 32]⟩
abbrev S1x200x32 : Shape := ⟨3, ![1, 200, 32]⟩

abbrev nBuf : Space → Nat
  | .hbm => 5
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S2x5000x32, .f32⟩
  | .hbm, ⟨4, _⟩ => ⟨S10000x32, .f32⟩
  | .local _ .vmem, ⟨0, _⟩ => ⟨S10000x128, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S128x32, .f32⟩
  | .local _ .vmem, ⟨6, _⟩ => ⟨S2x200x32, .f32⟩
  | .local _ .vmem, ⟨7, _⟩ => ⟨S2x200x32, .f32⟩
  | .local _ .vmem, ⟨8, _⟩ => ⟨S10000x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c25_i32 : BitVec 32 := 25#32
  let v0 : BitVec 32 := Scalar.addi arg0 c25_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x200x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2x5000x32_S10000x32 : S2x5000x32.ShapeCasts S10000x32
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S200x10000_S200x10000_0_0 : ∀ a, (![0, 0] : Fin 2 → Nat) a + S200x10000.size a ≤ S200x10000.size a
  h_S200x10000 : 0 < S200x10000.numel
  inb_S2x200x32_S1x200x32_0_0_0 : ∀ a, (![0, 0, 0] : Fin 3 → Nat) a + S1x200x32.size a ≤ S2x200x32.size a
  h_S1x200x32 : 0 < S1x200x32.numel
  shapeCasts_S1x200x32_S200x32 : S1x200x32.ShapeCasts S200x32
  shapeCasts_S200x32_S1x200x32 : S200x32.ShapeCasts S1x200x32
  inb_S2x200x32_S1x200x32_1_0_0 : ∀ a, (![1, 0, 0] : Fin 3 → Nat) a + S1x200x32.size a ≤ S2x200x32.size a
  dot_S10000x128_S128x32_S10000x32_1_0_0_1_n_n_wf : DotDims.WF S10000x128 S128x32 S10000x32 [1] [0] [0] [1] [] []
  dot_S200x10000_S10000x32_S200x32_1_0_0_1_n_n_wf : DotDims.WF S200x10000 S10000x32 S200x32 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .f32 = 32 ∨ (Rect.block (s := S128x32) S128x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x200x32.size a ≤ S2x5000x32.size a
  hwx0_4 : ∀ i : grid0.Coords, EltTy.bits .f32 = 32 ∨ (Rect.block (s := S2x5000x32) S2x200x32.size (cc0_transform_4 i) (hinb0_4 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S200x10000_S10000x32_S200x32_1_0_0_1_n_n : DotDims S200x10000 S10000x32 S200x32 where
  lhsContracting := [1]
  rhsContracting := [0]
  lhsNonContracting := [0]
  rhsNonContracting := [1]
  lhsBatch := []
  rhsBatch := []
  wf := dot_S200x10000_S10000x32_S200x32_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S2x200x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S10000x32 : Shape := ⟨2, ![10000, 32]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S10000x32, .f32⟩
  | .hbm, ⟨4, _⟩ => ⟨S10000x32, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf

class Facts : Prop extends Facts₀ where

variable [Facts]
-- ==== Proof.K.Shared.lean ====
/-
  What the two control cases of the graph-convolution kernel share.

  The kernel runs on a grid of 25 points. At every point it is handed the whole feature matrix
  (10000 x 128), two bands of 200 rows of the adjacency matrix (band t and band t + 25: both windows
  read the SAME array), the whole weight matrix (128 x 32), and writes a block of 2 x 200 x 32 results.
  At point 0 only, it first forms the projection  support = features * W  (10000 x 32) and keeps it in a
  buffer of its own that lives across the points; at every point the two result slabs are
  band * support.  This module fixes the vocabulary the cases are stated in: the arrays as the kernel
  finds them, a window's block at a point, the branch condition in closed form, the buffers the body is
  called on, and the two contents the body leaves: the projection, and the block of results.
-/
import proofs.«123862_g86758339379236_cont_sun_m_525_17_alg».proof.Proof.Gen.Kernel.Launch
import proofs.«123862_g86758339379236_cont_sun_m_525_17_alg».proof.Proof.Gen.Kernel.Skeleton
import proofs.«123862_g86758339379236_cont_sun_m_525_17_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the kernel finds them, and a window's block -/

/-- The kernel is the first thing the program does: it finds every array as launched. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The branch: "is this the first point?" -/

/-- The body's one conditional, as a function of the grid coordinate. -/
abbrev cond0 (i : grid0.Coords) : Prop :=
  (Scalar.cmpi .ne (Scalar.extui (Scalar.cmpi .eq (BitVec.ofNat 32 (i 0).val) 0#32)) 0#32) = 1#1

/-- It holds at point 0 and nowhere else: decided over the 25 points. -/
theorem hcond0 : ∀ t : Fin cfg0.N, cond0 (grid0.coords t) ↔ t.val = 0 :=
  (by decide +kernel : ∀ t : Fin grid0.N, cond0 (grid0.coords t) ↔ t.val = 0)

/-! ## The buffers the body is called on -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x32 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x200x32 .f32 := win0_4.stage (cfg0.slots t 4)
abbrev hs4 (t : Fin cfg0.N) : (ms4 t).IsWhole := hstage0_4 ((cfg0.slots t 4).cast nbuf0_4)
/-- The buffer that keeps the projection from one point to the next. -/
abbrev scM : Memref sig .tc .vmem S10000x32 .f32 := Memref.whole cc0_scratch0

/-! ## What the body leaves -/

/-- The one store into the projection's buffer: the whole of it, at  features * W. -/
def supPieces (x : Vec F S10000x128 .f32) (w : Vec F S128x32 .f32) : List (View.Piece (Elt F) S10000x32 .f32) :=
  [⟨Rect.unit (s := S10000x32) ![0, 0] S10000x32.size inb_S10000x32_S10000x32_0_0, k0_pay1 x w⟩]

/-- The projection  features * W  as the buffer holds it after point 0. -/
def support (x : Vec F S10000x128 .f32) (w : Vec F S128x32 .f32) : Vec F S10000x32 .f32 := View.canon (supPieces x w)

/-- The two stores into the block of results, the later first: slab 1 is (second band) * support,
    slab 0 is (first band) * support. -/
def outPieces (a1 a2 : Vec F S200x10000 .f32) (s : Vec F S10000x32 .f32) : List (View.Piece (Elt F) S2x200x32 .f32) :=
  [⟨Rect.unit (s := S2x200x32) ![1, 0, 0] S1x200x32.size inb_S2x200x32_S1x200x32_1_0_0, k0_pay3 a2 s⟩,
   ⟨Rect.unit (s := S2x200x32) ![0, 0, 0] S1x200x32.size inb_S2x200x32_S1x200x32_0_0_0, k0_pay2 a1 s⟩]

/-- The block of results the body leaves: the two slabs. -/
def outBlk (a1 a2 : Vec F S200x10000 .f32) (s : Vec F S10000x32 .f32) : Vec F S2x200x32 .f32 := View.canon (outPieces a1 a2 s)

/-- The store into the projection's buffer covers it; -/
theorem supCover (x : Vec F S10000x128 .f32) (w : Vec F S128x32 .f32) (y : S10000x32.Idx) :
    ∃ pc ∈ supPieces x w, y ∈ pc.1.set :=
  View.cover_of_tiledL (supPieces x w) S10000x32.size (by sl_kernel_rfl) y

/-- the two slabs cover the block of results. -/
theorem outCover (a1 a2 : Vec F S200x10000 .f32) (s : Vec F S10000x32 .f32) (y : S2x200x32.Idx) :
    ∃ pc ∈ outPieces a1 a2 s, y ∈ pc.1.set :=
  View.cover_of_tiledL (outPieces a1 a2 s) S1x200x32.size (by sl_kernel_rfl) y

/-- The class invariant with the projection's buffer spelt as a buffer owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.K.Data.lean ====
/-
  The proof data of the graph-convolution kernel's one pipeline.

  What each window's buffer holds after the body at each point: an input window's its block of the
  array (the body only reads it); the output window's the two result slabs,  band t * P  and
  band (t + 25) * P,  where  P = features * W  is the projection the body forms at point 0.  Between
  points the kernel keeps P in a buffer of its own: the invariant says that buffer holds anything
  before point 0 and P from then on.  The adjacency matrix is read through two windows; each holds
  one half of the array's share.
-/
import proofs.«123862_g86758339379236_cont_sun_m_525_17_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The grid has 25 points; -/
theorem N25 : cfg0.N = 25 := N_0
/-- the first of them. -/
abbrev t0 : Fin cfg0.N := ⟨0, lt_of_lt_of_eq (by decide : 0 < 25) N_0.symm⟩

/-- The projection  features * W,  from the blocks the first and fourth windows hold at point 0
    (each is its whole array). -/
def sup (c : Dev nD) : Vec F S10000x32 .f32 := support (iblk m c 0 t0) (iblk m c 3 t0)

/-- The invariant before position `n`: the projection's buffer at anything before the first point, at the
    projection afterwards. -/
def PhiS (c : Dev nD) : (n : ℕ) → n ≤ cfg0.N → sProp 𝕄
  | 0, _ => iprop(∃ d, owns (c : Thread nD τ) scM fullShare d)
  | _ + 1, _ => owns (c : Thread nD τ) scM fullShare (sup m c)

theorem PhiS_zero (c : Dev nD) (n : ℕ) (h : n ≤ cfg0.N) (hz : n = 0) :
    PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare (sup m c) := rfl

theorem PhiS_pos (c : Dev nD) (n : ℕ) (h : n ≤ cfg0.N) (hz : n ≠ 0) :
    PhiS m c n h = owns (c : Thread nD τ) scM fullShare (sup m c) := by
  cases n with
  | zero => exact absurd rfl hz
  | succ n => rfl

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 1 t) (iblk m c 2 t) (sup m c)
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlk (iblk m c 1 t) (iblk m c 2 t) (sup m c) := by dsimp only [dats]

/-- Each input window's buffer holds its block of the array at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-- The shares: the output's array and the two singly-read inputs whole, the adjacency matrix by halves. -/
theorem share0_0 (c : Dev nD) : (dats m 0 c).share 0 = fullShare := rfl
theorem share0_1 (c : Dev nD) : (dats m 0 c).share 1 = fullShare.left := rfl
theorem share0_2 (c : Dev nD) : (dats m 0 c).share 2 = fullShare.right := rfl
theorem share0_3 (c : Dev nD) : (dats m 0 c).share 3 = fullShare := rfl
theorem share0_4 (c : Dev nD) : (dats m 0 c).share 4 = fullShare := rfl

end Cert.Kernel.Hand

end
-- ==== Proof.K.RunLater.lean ====
/-
  The kernel body at a point that is not the first.

  The branch is not taken: the projection is already in its buffer, and the body only multiplies.  It
  reads the two bands of the adjacency matrix and the projection, and stores  band * projection  into
  the two slabs of the block of results; every other buffer it leaves as it found it.
-/
import proofs.«123862_g86758339379236_cont_sun_m_525_17_alg».proof.Proof.K.Shared
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Two zero offsets, however they are spelt. -/
theorem hz2 : (![0, 0] : Fin 2 → Nat) = fun _ => 0 := by funext a; fin_cases a <;> rfl

/-- From the inputs' buffers at their contents, the block of results at anything and the projection's buffer
    at `s`, the body runs to the same with the block of results at the two slabs  band * s. -/
theorem runLater (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x32 .f32) (harg4 : arg4.IsWhole) (arg5 : Memref sig .tc .vmem S2x200x32 .f32) (harg5 : arg5.IsWhole) (arg6 : Memref sig .tc .vmem S10000x32 .f32) (harg6 : arg6.IsWhole) (hc : ¬cond0 i)
    (x0 : Vec F S10000x128 .f32) (a1 a2 : Vec F S200x10000 .f32) (w0 : Vec F S128x32 .f32) (s : Vec F S10000x32 .f32)
    (E : Set ℕ) (K : PUnit → sProp 𝕄) :
    iprop(owns (c : Thread nD τ) arg1 fullShare x0 ∗ owns (c : Thread nD τ) arg2 fullShare a1 ∗ owns (c : Thread nD τ) arg3 fullShare a2
        ∗ owns (c : Thread nD τ) arg4 fullShare w0 ∗ (∃ d, owns (c : Thread nD τ) arg5 fullShare d) ∗ owns (c : Thread nD τ) arg6 fullShare s
        ∗ (iprop(owns (c : Thread nD τ) arg1 fullShare x0 ∗ owns (c : Thread nD τ) arg2 fullShare a1 ∗ owns (c : Thread nD τ) arg3 fullShare a2
            ∗ owns (c : Thread nD τ) arg4 fullShare w0 ∗ owns (c : Thread nD τ) arg5 fullShare (outBlk a1 a2 s)
            ∗ owns (c : Thread nD τ) arg6 fullShare s) -∗ K ⟨⟩))
      ⊢ wp frame (wpE (defs₀ (F := F)) Variants.none c none) E (cc0__gcn_kernel i arg1 harg1 arg2 harg2 arg3 harg3 arg4 harg4 arg5 harg5 arg6 harg6) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%d5, %f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := exact hc)
  sl_step
  simp only [View.readAt_eq_ld, harg2.read_unread, harg3.read_unread, harg6.read_unread,
    View.ld_unit_zero (S := S200x10000) hz2, View.ld_unit_zero (S := S10000x32) hz2]
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro; exact View.read_writes_eq_canon _ _ _ (outCover a1 a2 s)
  iexists _; isplitr; · ipureintro; exact harg6.read_unread _
  iexact H6

end Cert.Kernel.Hand

end
-- ==== Proof.K.RunFirst.lean ====
/-
  The kernel body at the first point.

  The branch is taken: the body first forms the projection  features * W  and stores it, whole, into
  the buffer that outlives the point (whatever that buffer held); then it multiplies as at every other
  point, reading the projection back from that buffer.
-/
import proofs.«123862_g86758339379236_cont_sun_m_525_17_alg».proof.Proof.K.RunLater

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One whole-buffer store leaves its payload: the projection is  features * W  as the body computes it. -/
theorem support_eq (x : Vec F S10000x128 .f32) (w : Vec F S128x32 .f32) : support x w = k0_pay1 x w :=
  View.canon_unit_zero hz2 _ _

/-- From the inputs' buffers at their contents, the block of results and the projection's buffer at anything,
    the body runs to the same with the projection's buffer at  x0 * w0  and the block of results at the two
    slabs  band * (x0 * w0). -/
theorem runFirst (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x32 .f32) (harg4 : arg4.IsWhole) (arg5 : Memref sig .tc .vmem S2x200x32 .f32) (harg5 : arg5.IsWhole) (arg6 : Memref sig .tc .vmem S10000x32 .f32) (harg6 : arg6.IsWhole) (hc : cond0 i)
    (x0 : Vec F S10000x128 .f32) (a1 a2 : Vec F S200x10000 .f32) (w0 : Vec F S128x32 .f32)
    (E : Set ℕ) (K : PUnit → sProp 𝕄) :
    iprop(owns (c : Thread nD τ) arg1 fullShare x0 ∗ owns (c : Thread nD τ) arg2 fullShare a1 ∗ owns (c : Thread nD τ) arg3 fullShare a2
        ∗ owns (c : Thread nD τ) arg4 fullShare w0 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare a1 ∗ owns (c : Thread nD τ) arg3 fullShare a2
            ∗ owns (c : Thread nD τ) arg4 fullShare w0 ∗ owns (c : Thread nD τ) arg5 fullShare (outBlk a1 a2 (support x0 w0))
            ∗ owns (c : Thread nD τ) arg6 fullShare (support x0 w0)) -∗ K ⟨⟩))
      ⊢ wp frame (wpE (defs₀ (F := F)) Variants.none c none) E (cc0__gcn_kernel i arg1 harg1 arg2 harg2 arg3 harg3 arg4 harg4 arg5 harg5 arg6 harg6) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%d5, %f5, %hf5, H5⟩, ⟨%d6, %f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := exact hc)
  sl_step
  sl_unfold_words
  simp only [View.readAt_eq_ld, harg1.read_unread, harg2.read_unread, harg3.read_unread, harg4.read_unread,
    View.ld_unit_zero (S := S200x10000) hz2, View.ld_unit_zero (S := S10000x128) hz2, View.ld_unit_zero (S := S128x32) hz2,
    View.readCov_unit_zero (S := S10000x32) _ hz2, support_eq]
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro; exact View.read_writes_eq_canon _ _ _ (outCover a1 a2 (k0_pay1 x0 w0))
  iexists _; isplitr
  swap; · iexact H6
  ipureintro; exact (View.read_writes_eq_canon _ _ _ (supCover x0 w0)).trans (support_eq x0 w0)

end Cert.Kernel.Hand

end
-- ==== Proof.K.Obligation.lean ====
/-
  The body obligation of the graph-convolution kernel's pipeline, and the invariant's two ends.

  At every point the pipeline hands the body its five windows' buffers and the invariant.  At point 0
  the invariant says nothing of the projection's buffer, the body fills it, and the invariant takes it
  back holding the projection; at a later point the invariant hands the body the projection and takes
  it back unchanged.  Either way the input buffers come back as found and the output buffer holds the
  two result slabs.
-/
import proofs.«123862_g86758339379236_cont_sun_m_525_17_alg».proof.Proof.K.Data
import proofs.«123862_g86758339379236_cont_sun_m_525_17_alg».proof.Proof.K.RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The core's scoped buffers besides the staging buffers are the projection's buffer alone. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from rfl, after0_0]
  rw [show (dats m 0 c).leavesExact 1 t = owns (c : Thread nD τ) (ms1 t) fullShare ((dats m 0 c).after 1 t) from rfl, after0_1]
  rw [show (dats m 0 c).leavesExact 2 t = owns (c : Thread nD τ) (ms2 t) fullShare ((dats m 0 c).after 2 t) from rfl, after0_2]
  rw [show (dats m 0 c).leavesExact 3 t = owns (c : Thread nD τ) (ms3 t) fullShare ((dats m 0 c).after 3 t) from rfl, after0_3]
  rw [show (dats m 0 c).leavesExact 4 t = owns (c : Thread nD τ) (ms4 t) fullShare ((dats m 0 c).after 4 t) from rfl, after0_4]
  rw [PhiS_castSucc m c t]
  by_cases hz : t.val = 0
  · rw [PhiS_zero m c _ _ hz]
    have e0 : iblk m c 0 t = iblk m c 0 t0 := by rw [show t = t0 from Fin.ext hz]
    have e3 : iblk m c 3 t = iblk m c 3 t0 := by rw [show t = t0 from Fin.ext hz]
    have es : sup m c = support (iblk m c 0 t) (iblk m c 3 t) := by rw [e0, e3]; rfl
    rw [es]
    iintro ⟨⟨%d6, HS⟩, Ho, ⟨%d0, H0⟩, ⟨%d1, H1⟩, ⟨%d2, H2⟩, ⟨%d3, H3⟩, ⟨%d4, H4⟩⟩
    iapply (runFirst c (grid0.coords t) (ms0 t) (hs0 t) (ms1 t) (hs1 t) (ms2 t) (hs2 t) (ms3 t) (hs3 t) (ms4 t) (hs4 t) scM (Memref.isWhole_whole _) ((hcond0 t).mpr hz) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, H4, HS⟩
    isplitl [HS]; · iexact HS
    isplitl [Ho]; · iexact Ho
    isplitl [H0]; · iexact H0
    isplitl [H1]; · iexact H1
    isplitl [H2]; · iexact H2
    isplitl [H3]; · iexact H3
    iexact H4
  · rw [PhiS_pos m c _ _ hz]
    iintro ⟨HS, Ho, ⟨%d0, H0⟩, ⟨%d1, H1⟩, ⟨%d2, H2⟩, ⟨%d3, H3⟩, ⟨%d4, H4⟩⟩
    iapply (runLater c (grid0.coords t) (ms0 t) (hs0 t) (ms1 t) (hs1 t) (ms2 t) (hs2 t) (ms3 t) (hs3 t) (ms4 t) (hs4 t) scM (Memref.isWhole_whole _) (fun h => hz ((hcond0 t).mp h)) (iblk m c 0 t) (iblk m c 1 t) (iblk m c 2 t) (iblk m c 3 t) (sup m c) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS]; · iexact HS
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region of the core's scoped buffers is the invariant before the first point; -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl, scopedRest_eq]
  try exact Idealize.SL.BI.Entails.refl _

/-- after the last point the invariant gives it back, the projection forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last, N25]; decide), scopedRest_eq]
  iintro H; iexists _; iexact H

end Cert.Kernel.Hand

end
-- ==== Proof.K.Exit.lean ====
/-
  The core's buffers when the kernel is done: the array of results at what the 25 write-backs left in
  it, every other buffer as launched.  The program's last step, a reshape of that array into the
  10000 x 32 result, runs from here.
-/
import proofs.«123862_g86758339379236_cont_sun_m_525_17_alg».proof.Proof.K.Data
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The kernel's array of results and the program's result, as buffers of the device. -/
abbrev dOut : DevRef τ sig := Proc.devRef .tc main_call0_v0
abbrev dRes : DevRef τ sig := Proc.devRef .tc main_v0

theorem dOut_ne_dRes : (dOut : DevRef τ sig) ≠ dRes := StableHlo.devRef_ne_of_ne (by decide)

/-- The buffers' contents at the kernel's exit. -/
def Wout (c : Dev nD) : Valuation τ sig (Elt F) :=
  Function.update (fun b => m (c, b)) dOut ((dats m 0 c).arrAt 4 cfg0.N)

theorem Wout_out (c : Dev nD) : Wout m c dOut = (dats m 0 c).arrAt 4 cfg0.N := by
  unfold Wout; rw [Function.update_self]

theorem Wout_of_ne (c : Dev nD) (b : DevRef τ sig) (hb : b ≠ dOut) : Wout m c b = m (c, b) := by
  unfold Wout; rw [Function.update_of_ne hb]

/-- The program's result when it returns: the reshape of the kernel's array of results. -/
def finalRes (c : Dev nD) : Buf (Elt F) ((c.tc : Thread nD τ).loc main_v0) :=
  StableHlo.after (hostOps1 (F := F)) (Wout m c) dRes

end Cert.Kernel.Hand

end
-- ==== Proof.K.Split.lean ====
/-
  How the launch's buffers become the pipeline's arrays.

  The five windows read and write FOUR buffers: the adjacency matrix is handed to the kernel twice,
  once per band stream.  The launch holds each buffer whole; the pipeline wants one points-to per
  window.  Neither of the two windows on the adjacency matrix writes it, so each takes one half of the
  array's share.
-/
import proofs.«123862_g86758339379236_cont_sun_m_525_17_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers behind the five windows' arrays, listed. -/
theorem arrRefs_eq :
    Finset.univ.image (Pipeline.arrRef spec0) = [main_arg0, main_arg1, main_arg2, main_call0_v0].toFinset := by decide

/-- A window's array is a whole buffer: a points-to of it is one of the buffer behind it. -/
theorem arr_eq (c : Dev nD) (w : Fin cfg0.W) (q : PosShare TreeShare)
    (X : Buf (Elt F) ((cfg0.win w).arr.view.loc (c.tc : Thread nD τ))) :
    (((cfg0.win w).arr.view.loc (c.tc : Thread nD τ)) ↦[(cfg0.win w).arr.view.set]{q} X : sProp 𝕄)
      = (((c.tc : Thread nD τ).loc (Pipeline.arrRef spec0 w)) ↦{q} X) := by
  rw [(arr_whole0 w).set_eq_univ]

/-- The pipeline's arrays, window by window, as points-tos of the buffers behind them at the windows' shares. -/
theorem arrays_open (c : Dev nD) (G : (w : Fin cfg0.W) → Buf (Elt F) ((cfg0.win w).arr.view.loc (c.tc : Thread nD τ))) :
    ((dats m 0 c).arrays G : sProp 𝕄)
      = iprop((((c.tc : Thread nD τ).loc main_arg0) ↦{fullShare} G 0)
          ∗ (((c.tc : Thread nD τ).loc main_arg1) ↦{fullShare.left} G 1)
          ∗ (((c.tc : Thread nD τ).loc main_arg1) ↦{fullShare.right} G 2)
          ∗ (((c.tc : Thread nD τ).loc main_arg2) ↦{fullShare} G 3)
          ∗ (((c.tc : Thread nD τ).loc main_call0_v0) ↦{fullShare} G 4)) := by
  unfold Dat.arrays
  rw [bigSep_W0, arr_eq c 0, arr_eq c 1, arr_eq c 2, arr_eq c 3, arr_eq c 4,
    share0_0, share0_1, share0_2, share0_3, share0_4]

/-- The four buffers behind the arrays, each whole, one by one. -/
theorem arrBufs_open (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_arg0) ↦{fullShare} W main_arg0)
          ∗ (((c.tc : Thread nD τ).loc main_arg1) ↦{fullShare} W main_arg1)
          ∗ (((c.tc : Thread nD τ).loc main_arg2) ↦{fullShare} W main_arg2)
          ∗ (((c.tc : Thread nD τ).loc main_call0_v0) ↦{fullShare} W main_call0_v0)) := by
  unfold Pipeline.arrBufs
  exact bigSep_eq_bigSepL_of_eq [main_arg0, main_arg1, main_arg2, main_call0_v0] arrRefs_eq (by decide) _

/-- The launch's four buffers, whole, make the pipeline's arrays at their entry contents. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_open, arrBufs_open]
  iintro ⟨H0, H1, H2, H3⟩
  ihave ⟨H1a, H1b⟩ := (pointsTo_share (PosShare.mem_left_op_right fullShare)).1 $$ H1
  isplitl [H0]; · iexact H0
  isplitl [H1a]; · iexact H1a
  isplitl [H1b]; · iexact H1b
  isplitl [H2]; · iexact H2
  iexact H3

end Cert.Kernel.Hand

end
-- ==== Proof.K.Tail.lean ====
/-
  The program's last step: after the kernel, one reshape turns the 2 x 5000 x 32 array of results into
  the 10000 x 32 result.  It reads the kernel's array (held whole: the kernel wrote it) and writes the
  result buffer, which the kernel never touched; the other arrays ride along at their shares.
-/
import proofs.«123862_g86758339379236_cont_sun_m_525_17_alg».proof.Proof.K.Exit
import proofs.«123862_g86758339379236_cont_sun_m_525_17_alg».proof.Proof.K.Split

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The kernel names no variant. -/
abbrev 𝒱₀ : Variants := Variants.none

/-- The two buffers the reshape touches. -/
def tailS : Finset (DevRef τ sig) := {dOut, dRes}

theorem hostOps1_in : ∀ ops ∈ [hostOps1 (F := F)], ∀ op ∈ ops, op.bufs ⊆ (tailS : Finset (DevRef τ sig)) := by
  intro ops hops op hop
  rw [List.mem_singleton] at hops; subst hops
  rw [hostOps1, List.mem_singleton] at hop; subst hop
  exact (show _ = (tailS : Finset (DevRef τ sig)) from rfl).subset

theorem hostOps1_fresh : ∀ ops ∈ [hostOps1 (F := F)], ∀ op ∈ ops, op.fresh = ∅ := by
  intro ops hops op hop
  rw [List.mem_singleton] at hops; subst hops
  rw [hostOps1, List.mem_singleton] at hop; subst hop
  rfl

/-- The reshape does not write the array it reads. -/
theorem hostOps1_keeps : ∀ op ∈ hostOps1 (F := F), (dOut : DevRef τ sig) ∉ op.writes := by
  intro op hop
  rw [hostOps1, List.mem_singleton] at hop; subst hop
  rw [show (StableHlo.TRef.reshape (.of main_call0_v0 : StableHlo.TRef sig ⟨S2x5000x32, .f32⟩) (.of main_v0 : StableHlo.TRef sig ⟨S10000x32, .f32⟩) rfl shapeCasts_S2x5000x32_S10000x32 : HloOp τ sig (Elt F)).writes = {dRes} from rfl,
    Finset.mem_singleton]
  exact dOut_ne_dRes

/-- The two buffers held at the kernel's exit: the array of results at its final contents, the result
    buffer as launched; -/
theorem held_before (c : Dev nD) :
    (StableHlo.held (c.tc : Thread nD τ) tailS (Wout m c) : sProp 𝕄)
      = iprop((((c.tc : Thread nD τ).loc main_call0_v0) ↦{fullShare} (dats m 0 c).arrAt 4 cfg0.N)
          ∗ (((c.tc : Thread nD τ).loc main_v0) ↦{fullShare} V m c main_v0)) := by
  unfold StableHlo.held tailS
  rw [bigSep_insert (by rw [Finset.mem_singleton]; exact dOut_ne_dRes), bigSep_singleton, Wout_out, Wout_of_ne m c dRes dOut_ne_dRes.symm]
  rfl

/-- and after the reshape: the array of results as it was, the result buffer at the program's result. -/
theorem held_after (c : Dev nD) :
    (StableHlo.held (c.tc : Thread nD τ) tailS (StableHlo.after [hostOps1 (F := F)].flatten (Wout m c)) : sProp 𝕄)
      = iprop((((c.tc : Thread nD τ).loc main_call0_v0) ↦{fullShare} (dats m 0 c).arrAt 4 cfg0.N)
          ∗ (((c.tc : Thread nD τ).loc main_v0) ↦{fullShare} finalRes m c)) := by
  unfold StableHlo.held tailS finalRes
  rw [bigSep_insert (by rw [Finset.mem_singleton]; exact dOut_ne_dRes), bigSep_singleton]
  simp only [List.flatten_cons, List.flatten_nil, List.append_nil]
  rw [StableHlo.after_of_forall_not_mem (hostOps1 (F := F)) (Wout m c) (hostOps1_keeps), Wout_out]
  rfl

set_option backward.isDefEq.respectTransparency.types false in
/-- THE LAST STEP. From the kernel's exit (the pipeline's arrays at their final contents, the result buffer as
    launched) the reshape runs and hands back the arrays as they were and the result buffer at the program's result. -/
theorem htail (c : Dev nD) (Q' : PUnit → sProp 𝕄) :
    iprop((iprop((dats m 0 c).arrays ((dats m 0 c).arrAt · cfg0.N)
              ∗ (((c.tc : Thread nD τ).loc main_v0) ↦{fullShare} finalRes m c)) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (pcfgs (F := F)) defs₀) (Variants.lift 𝒱₀) (c.tc : Thread nD τ) none) Set.univ
          (Pipeline.chain ([hostOps1 (F := F)].map StableHlo.seq)) Q' := by
  rw [arrays_open, unscopedRest0_eq, ← List.append_nil ([hostOps1 (F := F)].map StableHlo.seq)]
  iintro ⟨Hk, Hbd, ⟨A0, A1, A2, A3, A4⟩, Hv⟩
  have hseq := Pipeline.wp_seqs_then (Ix := Unit) (Name := ℕ) (U := UR sig nD τ) (Lvl := ℕ) (pcfgs (F := F)) defs₀ 𝒱₀ c tailS [] (K := Q')
    [hostOps1 (F := F)] hostOps1_in hostOps1_fresh (Wout m c)
  iapply hseq $$ [Hbd A4 Hv]
  · rw [held_before]
    isplitl [Hbd]; · iexact Hbd
    isplitl [A4]; · iexact A4
    iexact Hv
  iintro Hb
  rw [Pipeline.chain_nil, wp_pure, held_after]
  imodintro
  iapply Hk
  icases Hb with ⟨-, B4, Bv⟩
  isplitr [Bv]
  · isplitl [A0]; · iexact A0
    isplitl [A1]; · iexact A1
    isplitl [A2]; · iexact A2
    isplitl [A3]; · iexact A3
    iexact B4
  iexact Bv

end Cert.Kernel.Hand

end
-- ==== Proof.K.Launch.lean ====
/-
  The launch: every weakly fair execution of the program, at any value instance, terminates without a
  fault; when it does, each of the pipeline's arrays holds what the proof data says (an input array what
  it held at launch, the array of results what the 25 write-backs left), and the result buffer holds the
  reshape of the array of results.

  The program is the kernel's region followed by one reshape.  Two of the kernel's windows read the same
  array, so the launch is the library's theorem that lets the certificate say how the buffers behind the
  arrays are dealt among the windows (by halves of the share, for the array read twice), continued by
  the reshape run by hand over the two buffers it touches.
-/
import proofs.«123862_g86758339379236_cont_sun_m_525_17_alg».proof.Proof.K.Obligation
import proofs.«123862_g86758339379236_cont_sun_m_525_17_alg».proof.Proof.K.Tail

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main is the kernel's region, then the reshape: holding the unscoped buffers as launched, it reduces to the
    region continued by the reshape. -/
theorem hmain :
    Pipeline.HMainK (Ix := Unit) (Name := ℕ) (U := UR sig nD τ) (Lvl := ℕ) cfgs 0 defs₀ 𝒱₀ m (main (F := F)) (V m)
      (fun _ => Pipeline.chain ([hostOps1 (F := F)].map StableHlo.seq)) :=
  Pipeline.hmain_around cfgs 0 defs₀ 𝒱₀ m main [] [hostOps1 (F := F)] trivial trivial fun c => (main_chain c).trans rfl

/-- What the final state says of core `c`: its arrays at the proof data's final contents, the result buffer at the
    reshape of the array of results. -/
def RunPost (r : PUnit × MemSt nD τ sig (Elt F)) : Prop :=
  ∀ c : Dev nD, (∀ w, r.2.mem ((cfg0.spec w).arr.view.loc (c.tc : Thread nD τ)) = (dats m 0 c).arrAt w cfg0.N)
    ∧ r.2.mem ((c.tc : Thread nD τ).loc main_v0) = finalRes m c

set_option backward.isDefEq.respectTransparency.types false in
/-- THE RUN. -/
theorem run_main : θ_run (defs (F := F)) (onTc (τ := τ) (main (F := F))) ⟨m, fun _ => 0, ρ⟩ (RunPost m) :=
  Pipeline.θ_run_region_noSem_pf_tail (pcfgs (F := F)) (fun p => (cfgs p).toPCfg_adm) (dats m) () cellOf_inj (0 : Fin 1)
    winFacts₀0 (Pipeline.PreFacts.none _) emb₁ defs₀ 𝒱₀ m ρ main (fun _ => Pipeline.chain ([hostOps1 (F := F)].map StableHlo.seq))
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m) (hsplit := hsplit m) (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => (((c.tc : Thread nD τ).loc main_v0) ↦{fullShare} finalRes m c : sProp 𝕄))
    (hX := fun c => by
      rw [Pipeline.unscopedRestP_none]
      iintro H; isplitr; · iempintro
      iexact H)
    (hin := fun c => by
      iintro ⟨-, -, HR⟩
      iapply (hin m c); iexact HR)
    (hout := fun c => by
      iintro H; isplitr; · iempintro
      iapply (hout m c); iexact H)
    (htail := htail m)
    (QY := fun c s => s.mem ((c.tc : Thread nD τ).loc main_v0) = finalRes m c)
    (hY := fun c s' => by
      iintro ⟨-, HZ, HSI⟩
      imodintro
      ihave H := (pointsTo_read_all ({()} : Finset Unit) (fun _ => (c.tc : Thread nD τ).loc main_v0) (fun _ => finalRes m c) s') $$ [HZ HSI]
      · rw [bigSep_singleton]; isplitl [HZ] <;> iassumption
      icases H with ⟨%h, HSI⟩
      isplitr; · ipureintro; exact h () (Finset.mem_singleton_self _)
      iexact HSI)
    (hQ := fun s h c => ⟨(h c).1, (h c).2.2⟩)

/-- info: 'Cert.Kernel.Hand.run_main' depends on axioms: [propext, Classical.choice, Quot.sound] -/
#guard_msgs in #print axioms run_main

/-- An input window's array is never written: it ends as launched. -/
theorem arg0_kept (c : Dev nD) : (dats m 0 c).arrAt 0 cfg0.N = m ((c.tc : Thread nD τ).loc main_arg0) :=
  ((dats m 0 c).arrAt_in 0 rfl _).trans (A_eq m c 0)
theorem arg1_kept (c : Dev nD) : (dats m 0 c).arrAt 1 cfg0.N = m ((c.tc : Thread nD τ).loc main_arg1) :=
  ((dats m 0 c).arrAt_in 1 rfl _).trans (A_eq m c 1)
theorem arg2_kept (c : Dev nD) : (dats m 0 c).arrAt 3 cfg0.N = m ((c.tc : Thread nD τ).loc main_arg2) :=
  ((dats m 0 c).arrAt_in 3 rfl _).trans (A_eq m c 3)

/-- THE FRAME: the program runs to its end without a fault and leaves its three argument arrays as launched. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (arg0_kept m c), ((h c).1 1).trans (arg1_kept m c), ((h c).1 3).trans (arg2_kept m c)⟩) (run_main m ρ)

end Cert.Kernel.Hand

end
-- ==== Proof.KI.Shared.lean ====
/-
  What the two control cases of the graph-convolution kernel share.

  The kernel runs on a grid of 25 points. At every point it is handed the whole feature matrix
  (10000 x 128), two bands of 200 rows of the adjacency matrix (band t and band t + 25: both windows
  read the SAME array), the whole weight matrix (128 x 32), and writes a block of 2 x 200 x 32 results.
  At point 0 only, it first forms the projection  support = features * W  (10000 x 32) and keeps it in a
  buffer of its own that lives across the points; at every point the two result slabs are
  band * support.  This module fixes the vocabulary the cases are stated in: the arrays as the kernel
  finds them, a window's block at a point, the branch condition in closed form, the buffers the body is
  called on, and the two contents the body leaves: the projection, and the block of results.
-/
import proofs.«123862_g86758339379236_cont_sun_m_525_17_alg».proof.Proof.Gen.KernelIdeal.Launch
import proofs.«123862_g86758339379236_cont_sun_m_525_17_alg».proof.Proof.Gen.KernelIdeal.Skeleton
import proofs.«123862_g86758339379236_cont_sun_m_525_17_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the kernel finds them, and a window's block -/

/-- The kernel is the first thing the program does: it finds every array as launched. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The branch: "is this the first point?" -/

/-- The body's one conditional, as a function of the grid coordinate. -/
abbrev cond0 (i : grid0.Coords) : Prop :=
  (Scalar.cmpi .ne (Scalar.extui (Scalar.cmpi .eq (BitVec.ofNat 32 (i 0).val) 0#32)) 0#32) = 1#1

/-- It holds at point 0 and nowhere else: decided over the 25 points. -/
theorem hcond0 : ∀ t : Fin cfg0.N, cond0 (grid0.coords t) ↔ t.val = 0 :=
  (by decide +kernel : ∀ t : Fin grid0.N, cond0 (grid0.coords t) ↔ t.val = 0)

/-! ## The buffers the body is called on -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x32 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x200x32 .f32 := win0_4.stage (cfg0.slots t 4)
abbrev hs4 (t : Fin cfg0.N) : (ms4 t).IsWhole := hstage0_4 ((cfg0.slots t 4).cast nbuf0_4)
/-- The buffer that keeps the projection from one point to the next. -/
abbrev scM : Memref sig .tc .vmem S10000x32 .f32 := Memref.whole cc0_scratch0

/-! ## What the body leaves -/

/-- The one store into the projection's buffer: the whole of it, at  features * W. -/
def supPieces (x : Vec F S10000x128 .f32) (w : Vec F S128x32 .f32) : List (View.Piece (Elt F) S10000x32 .f32) :=
  [⟨Rect.unit (s := S10000x32) ![0, 0] S10000x32.size inb_S10000x32_S10000x32_0_0, k0_pay1 x w⟩]

/-- The projection  features * W  as the buffer holds it after point 0. -/
def support (x : Vec F S10000x128 .f32) (w : Vec F S128x32 .f32) : Vec F S10000x32 .f32 := View.canon (supPieces x w)

/-- The two stores into the block of results, the later first: slab 1 is (second band) * support,
    slab 0 is (first band) * support. -/
def outPieces (a1 a2 : Vec F S200x10000 .f32) (s : Vec F S10000x32 .f32) : List (View.Piece (Elt F) S2x200x32 .f32) :=
  [⟨Rect.unit (s := S2x200x32) ![1, 0, 0] S1x200x32.size inb_S2x200x32_S1x200x32_1_0_0, k0_pay3 a2 s⟩,
   ⟨Rect.unit (s := S2x200x32) ![0, 0, 0] S1x200x32.size inb_S2x200x32_S1x200x32_0_0_0, k0_pay2 a1 s⟩]

/-- The block of results the body leaves: the two slabs. -/
def outBlk (a1 a2 : Vec F S200x10000 .f32) (s : Vec F S10000x32 .f32) : Vec F S2x200x32 .f32 := View.canon (outPieces a1 a2 s)

/-- The store into the projection's buffer covers it; -/
theorem supCover (x : Vec F S10000x128 .f32) (w : Vec F S128x32 .f32) (y : S10000x32.Idx) :
    ∃ pc ∈ supPieces x w, y ∈ pc.1.set :=
  View.cover_of_tiledL (supPieces x w) S10000x32.size (by sl_kernel_rfl) y

/-- the two slabs cover the block of results. -/
theorem outCover (a1 a2 : Vec F S200x10000 .f32) (s : Vec F S10000x32 .f32) (y : S2x200x32.Idx) :
    ∃ pc ∈ outPieces a1 a2 s, y ∈ pc.1.set :=
  View.cover_of_tiledL (outPieces a1 a2 s) S1x200x32.size (by sl_kernel_rfl) y

/-- The class invariant with the projection's buffer spelt as a buffer owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KI.Data.lean ====
/-
  The proof data of the graph-convolution kernel's one pipeline.

  What each window's buffer holds after the body at each point: an input window's its block of the
  array (the body only reads it); the output window's the two result slabs,  band t * P  and
  band (t + 25) * P,  where  P = features * W  is the projection the body forms at point 0.  Between
  points the kernel keeps P in a buffer of its own: the invariant says that buffer holds anything
  before point 0 and P from then on.  The adjacency matrix is read through two windows; each holds
  one half of the array's share.
-/
import proofs.«123862_g86758339379236_cont_sun_m_525_17_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The grid has 25 points; -/
theorem N25 : cfg0.N = 25 := N_0
/-- the first of them. -/
abbrev t0 : Fin cfg0.N := ⟨0, lt_of_lt_of_eq (by decide : 0 < 25) N_0.symm⟩

/-- The projection  features * W,  from the blocks the first and fourth windows hold at point 0
    (each is its whole array). -/
def sup (c : Dev nD) : Vec F S10000x32 .f32 := support (iblk m c 0 t0) (iblk m c 3 t0)

/-- The invariant before position `n`: the projection's buffer at anything before the first point, at the
    projection afterwards. -/
def PhiS (c : Dev nD) : (n : ℕ) → n ≤ cfg0.N → sProp 𝕄
  | 0, _ => iprop(∃ d, owns (c : Thread nD τ) scM fullShare d)
  | _ + 1, _ => owns (c : Thread nD τ) scM fullShare (sup m c)

theorem PhiS_zero (c : Dev nD) (n : ℕ) (h : n ≤ cfg0.N) (hz : n = 0) :
    PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare (sup m c) := rfl

theorem PhiS_pos (c : Dev nD) (n : ℕ) (h : n ≤ cfg0.N) (hz : n ≠ 0) :
    PhiS m c n h = owns (c : Thread nD τ) scM fullShare (sup m c) := by
  cases n with
  | zero => exact absurd rfl hz
  | succ n => rfl

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 1 t) (iblk m c 2 t) (sup m c)
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlk (iblk m c 1 t) (iblk m c 2 t) (sup m c) := by dsimp only [dats]

/-- Each input window's buffer holds its block of the array at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-- The shares: the output's array and the two singly-read inputs whole, the adjacency matrix by halves. -/
theorem share0_0 (c : Dev nD) : (dats m 0 c).share 0 = fullShare := rfl
theorem share0_1 (c : Dev nD) : (dats m 0 c).share 1 = fullShare.left := rfl
theorem share0_2 (c : Dev nD) : (dats m 0 c).share 2 = fullShare.right := rfl
theorem share0_3 (c : Dev nD) : (dats m 0 c).share 3 = fullShare := rfl
theorem share0_4 (c : Dev nD) : (dats m 0 c).share 4 = fullShare := rfl

end Cert.KernelIdeal.Hand

end
-- ==== Proof.KI.RunLater.lean ====
/-
  The kernel body at a point that is not the first.

  The branch is not taken: the projection is already in its buffer, and the body only multiplies.  It
  reads the two bands of the adjacency matrix and the projection, and stores  band * projection  into
  the two slabs of the block of results; every other buffer it leaves as it found it.
-/
import proofs.«123862_g86758339379236_cont_sun_m_525_17_alg».proof.Proof.KI.Shared
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Two zero offsets, however they are spelt. -/
theorem hz2 : (![0, 0] : Fin 2 → Nat) = fun _ => 0 := by funext a; fin_cases a <;> rfl

/-- From the inputs' buffers at their contents, the block of results at anything and the projection's buffer
    at `s`, the body runs to the same with the block of results at the two slabs  band * s. -/
theorem runLater (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x32 .f32) (harg4 : arg4.IsWhole) (arg5 : Memref sig .tc .vmem S2x200x32 .f32) (harg5 : arg5.IsWhole) (arg6 : Memref sig .tc .vmem S10000x32 .f32) (harg6 : arg6.IsWhole) (hc : ¬cond0 i)
    (x0 : Vec F S10000x128 .f32) (a1 a2 : Vec F S200x10000 .f32) (w0 : Vec F S128x32 .f32) (s : Vec F S10000x32 .f32)
    (E : Set ℕ) (K : PUnit → sProp 𝕄) :
    iprop(owns (c : Thread nD τ) arg1 fullShare x0 ∗ owns (c : Thread nD τ) arg2 fullShare a1 ∗ owns (c : Thread nD τ) arg3 fullShare a2
        ∗ owns (c : Thread nD τ) arg4 fullShare w0 ∗ (∃ d, owns (c : Thread nD τ) arg5 fullShare d) ∗ owns (c : Thread nD τ) arg6 fullShare s
        ∗ (iprop(owns (c : Thread nD τ) arg1 fullShare x0 ∗ owns (c : Thread nD τ) arg2 fullShare a1 ∗ owns (c : Thread nD τ) arg3 fullShare a2
            ∗ owns (c : Thread nD τ) arg4 fullShare w0 ∗ owns (c : Thread nD τ) arg5 fullShare (outBlk a1 a2 s)
            ∗ owns (c : Thread nD τ) arg6 fullShare s) -∗ K ⟨⟩))
      ⊢ wp frame (wpE (defs₀ (F := F)) Variants.none c none) E (cc0__gcn_kernel i arg1 harg1 arg2 harg2 arg3 harg3 arg4 harg4 arg5 harg5 arg6 harg6) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%d5, %f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := exact hc)
  sl_step
  simp only [View.readAt_eq_ld, harg2.read_unread, harg3.read_unread, harg6.read_unread,
    View.ld_unit_zero (S := S200x10000) hz2, View.ld_unit_zero (S := S10000x32) hz2]
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro; exact View.read_writes_eq_canon _ _ _ (outCover a1 a2 s)
  iexists _; isplitr; · ipureintro; exact harg6.read_unread _
  iexact H6

end Cert.KernelIdeal.Hand

end
-- ==== Proof.KI.RunFirst.lean ====
/-
  The kernel body at the first point.

  The branch is taken: the body first forms the projection  features * W  and stores it, whole, into
  the buffer that outlives the point (whatever that buffer held); then it multiplies as at every other
  point, reading the projection back from that buffer.
-/
import proofs.«123862_g86758339379236_cont_sun_m_525_17_alg».proof.Proof.KI.RunLater

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One whole-buffer store leaves its payload: the projection is  features * W  as the body computes it. -/
theorem support_eq (x : Vec F S10000x128 .f32) (w : Vec F S128x32 .f32) : support x w = k0_pay1 x w :=
  View.canon_unit_zero hz2 _ _

/-- From the inputs' buffers at their contents, the block of results and the projection's buffer at anything,
    the body runs to the same with the projection's buffer at  x0 * w0  and the block of results at the two
    slabs  band * (x0 * w0). -/
theorem runFirst (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x32 .f32) (harg4 : arg4.IsWhole) (arg5 : Memref sig .tc .vmem S2x200x32 .f32) (harg5 : arg5.IsWhole) (arg6 : Memref sig .tc .vmem S10000x32 .f32) (harg6 : arg6.IsWhole) (hc : cond0 i)
    (x0 : Vec F S10000x128 .f32) (a1 a2 : Vec F S200x10000 .f32) (w0 : Vec F S128x32 .f32)
    (E : Set ℕ) (K : PUnit → sProp 𝕄) :
    iprop(owns (c : Thread nD τ) arg1 fullShare x0 ∗ owns (c : Thread nD τ) arg2 fullShare a1 ∗ owns (c : Thread nD τ) arg3 fullShare a2
        ∗ owns (c : Thread nD τ) arg4 fullShare w0 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare a1 ∗ owns (c : Thread nD τ) arg3 fullShare a2
            ∗ owns (c : Thread nD τ) arg4 fullShare w0 ∗ owns (c : Thread nD τ) arg5 fullShare (outBlk a1 a2 (support x0 w0))
            ∗ owns (c : Thread nD τ) arg6 fullShare (support x0 w0)) -∗ K ⟨⟩))
      ⊢ wp frame (wpE (defs₀ (F := F)) Variants.none c none) E (cc0__gcn_kernel i arg1 harg1 arg2 harg2 arg3 harg3 arg4 harg4 arg5 harg5 arg6 harg6) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%d5, %f5, %hf5, H5⟩, ⟨%d6, %f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := exact hc)
  sl_step
  sl_unfold_words
  simp only [View.readAt_eq_ld, harg1.read_unread, harg2.read_unread, harg3.read_unread, harg4.read_unread,
    View.ld_unit_zero (S := S200x10000) hz2, View.ld_unit_zero (S := S10000x128) hz2, View.ld_unit_zero (S := S128x32) hz2,
    View.readCov_unit_zero (S := S10000x32) _ hz2, support_eq]
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro; exact View.read_writes_eq_canon _ _ _ (outCover a1 a2 (k0_pay1 x0 w0))
  iexists _; isplitr
  swap; · iexact H6
  ipureintro; exact (View.read_writes_eq_canon _ _ _ (supCover x0 w0)).trans (support_eq x0 w0)

end Cert.KernelIdeal.Hand

end
-- ==== Proof.KI.Obligation.lean ====
/-
  The body obligation of the graph-convolution kernel's pipeline, and the invariant's two ends.

  At every point the pipeline hands the body its five windows' buffers and the invariant.  At point 0
  the invariant says nothing of the projection's buffer, the body fills it, and the invariant takes it
  back holding the projection; at a later point the invariant hands the body the projection and takes
  it back unchanged.  Either way the input buffers come back as found and the output buffer holds the
  two result slabs.
-/
import proofs.«123862_g86758339379236_cont_sun_m_525_17_alg».proof.Proof.KI.Data
import proofs.«123862_g86758339379236_cont_sun_m_525_17_alg».proof.Proof.KI.RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The core's scoped buffers besides the staging buffers are the projection's buffer alone. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from rfl, after0_0]
  rw [show (dats m 0 c).leavesExact 1 t = owns (c : Thread nD τ) (ms1 t) fullShare ((dats m 0 c).after 1 t) from rfl, after0_1]
  rw [show (dats m 0 c).leavesExact 2 t = owns (c : Thread nD τ) (ms2 t) fullShare ((dats m 0 c).after 2 t) from rfl, after0_2]
  rw [show (dats m 0 c).leavesExact 3 t = owns (c : Thread nD τ) (ms3 t) fullShare ((dats m 0 c).after 3 t) from rfl, after0_3]
  rw [show (dats m 0 c).leavesExact 4 t = owns (c : Thread nD τ) (ms4 t) fullShare ((dats m 0 c).after 4 t) from rfl, after0_4]
  rw [PhiS_castSucc m c t]
  by_cases hz : t.val = 0
  · rw [PhiS_zero m c _ _ hz]
    have e0 : iblk m c 0 t = iblk m c 0 t0 := by rw [show t = t0 from Fin.ext hz]
    have e3 : iblk m c 3 t = iblk m c 3 t0 := by rw [show t = t0 from Fin.ext hz]
    have es : sup m c = support (iblk m c 0 t) (iblk m c 3 t) := by rw [e0, e3]; rfl
    rw [es]
    iintro ⟨⟨%d6, HS⟩, Ho, ⟨%d0, H0⟩, ⟨%d1, H1⟩, ⟨%d2, H2⟩, ⟨%d3, H3⟩, ⟨%d4, H4⟩⟩
    iapply (runFirst c (grid0.coords t) (ms0 t) (hs0 t) (ms1 t) (hs1 t) (ms2 t) (hs2 t) (ms3 t) (hs3 t) (ms4 t) (hs4 t) scM (Memref.isWhole_whole _) ((hcond0 t).mpr hz) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, H4, HS⟩
    isplitl [HS]; · iexact HS
    isplitl [Ho]; · iexact Ho
    isplitl [H0]; · iexact H0
    isplitl [H1]; · iexact H1
    isplitl [H2]; · iexact H2
    isplitl [H3]; · iexact H3
    iexact H4
  · rw [PhiS_pos m c _ _ hz]
    iintro ⟨HS, Ho, ⟨%d0, H0⟩, ⟨%d1, H1⟩, ⟨%d2, H2⟩, ⟨%d3, H3⟩, ⟨%d4, H4⟩⟩
    iapply (runLater c (grid0.coords t) (ms0 t) (hs0 t) (ms1 t) (hs1 t) (ms2 t) (hs2 t) (ms3 t) (hs3 t) (ms4 t) (hs4 t) scM (Memref.isWhole_whole _) (fun h => hz ((hcond0 t).mp h)) (iblk m c 0 t) (iblk m c 1 t) (iblk m c 2 t) (iblk m c 3 t) (sup m c) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS]; · iexact HS
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region of the core's scoped buffers is the invariant before the first point; -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl, scopedRest_eq]
  try exact Idealize.SL.BI.Entails.refl _

/-- after the last point the invariant gives it back, the projection forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last, N25]; decide), scopedRest_eq]
  iintro H; iexists _; iexact H

end Cert.KernelIdeal.Hand

end
-- ==== Proof.KI.Exit.lean ====
/-
  The core's buffers when the kernel is done: the array of results at what the 25 write-backs left in
  it, every other buffer as launched.  The program's last step, a reshape of that array into the
  10000 x 32 result, runs from here.
-/
import proofs.«123862_g86758339379236_cont_sun_m_525_17_alg».proof.Proof.KI.Data
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The kernel's array of results and the program's result, as buffers of the device. -/
abbrev dOut : DevRef τ sig := Proc.devRef .tc main_call0_v0
abbrev dRes : DevRef τ sig := Proc.devRef .tc main_v0

theorem dOut_ne_dRes : (dOut : DevRef τ sig) ≠ dRes := StableHlo.devRef_ne_of_ne (by decide)

/-- The buffers' contents at the kernel's exit. -/
def Wout (c : Dev nD) : Valuation τ sig (Elt F) :=
  Function.update (fun b => m (c, b)) dOut ((dats m 0 c).arrAt 4 cfg0.N)

theorem Wout_out (c : Dev nD) : Wout m c dOut = (dats m 0 c).arrAt 4 cfg0.N := by
  unfold Wout; rw [Function.update_self]

theorem Wout_of_ne (c : Dev nD) (b : DevRef τ sig) (hb : b ≠ dOut) : Wout m c b = m (c, b) := by
  unfold Wout; rw [Function.update_of_ne hb]

/-- The program's result when it returns: the reshape of the kernel's array of results. -/
def finalRes (c : Dev nD) : Buf (Elt F) ((c.tc : Thread nD τ).loc main_v0) :=
  StableHlo.after (hostOps1 (F := F)) (Wout m c) dRes

end Cert.KernelIdeal.Hand

end
-- ==== Proof.KI.Split.lean ====
/-
  How the launch's buffers become the pipeline's arrays.

  The five windows read and write FOUR buffers: the adjacency matrix is handed to the kernel twice,
  once per band stream.  The launch holds each buffer whole; the pipeline wants one points-to per
  window.  Neither of the two windows on the adjacency matrix writes it, so each takes one half of the
  array's share.
-/
import proofs.«123862_g86758339379236_cont_sun_m_525_17_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers behind the five windows' arrays, listed. -/
theorem arrRefs_eq :
    Finset.univ.image (Pipeline.arrRef spec0) = [main_arg0, main_arg1, main_arg2, main_call0_v0].toFinset := by decide

/-- A window's array is a whole buffer: a points-to of it is one of the buffer behind it. -/
theorem arr_eq (c : Dev nD) (w : Fin cfg0.W) (q : PosShare TreeShare)
    (X : Buf (Elt F) ((cfg0.win w).arr.view.loc (c.tc : Thread nD τ))) :
    (((cfg0.win w).arr.view.loc (c.tc : Thread nD τ)) ↦[(cfg0.win w).arr.view.set]{q} X : sProp 𝕄)
      = (((c.tc : Thread nD τ).loc (Pipeline.arrRef spec0 w)) ↦{q} X) := by
  rw [(arr_whole0 w).set_eq_univ]

/-- The pipeline's arrays, window by window, as points-tos of the buffers behind them at the windows' shares. -/
theorem arrays_open (c : Dev nD) (G : (w : Fin cfg0.W) → Buf (Elt F) ((cfg0.win w).arr.view.loc (c.tc : Thread nD τ))) :
    ((dats m 0 c).arrays G : sProp 𝕄)
      = iprop((((c.tc : Thread nD τ).loc main_arg0) ↦{fullShare} G 0)
          ∗ (((c.tc : Thread nD τ).loc main_arg1) ↦{fullShare.left} G 1)
          ∗ (((c.tc : Thread nD τ).loc main_arg1) ↦{fullShare.right} G 2)
          ∗ (((c.tc : Thread nD τ).loc main_arg2) ↦{fullShare} G 3)
          ∗ (((c.tc : Thread nD τ).loc main_call0_v0) ↦{fullShare} G 4)) := by
  unfold Dat.arrays
  rw [bigSep_W0, arr_eq c 0, arr_eq c 1, arr_eq c 2, arr_eq c 3, arr_eq c 4,
    share0_0, share0_1, share0_2, share0_3, share0_4]

/-- The four buffers behind the arrays, each whole, one by one. -/
theorem arrBufs_open (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_arg0) ↦{fullShare} W main_arg0)
          ∗ (((c.tc : Thread nD τ).loc main_arg1) ↦{fullShare} W main_arg1)
          ∗ (((c.tc : Thread nD τ).loc main_arg2) ↦{fullShare} W main_arg2)
          ∗ (((c.tc : Thread nD τ).loc main_call0_v0) ↦{fullShare} W main_call0_v0)) := by
  unfold Pipeline.arrBufs
  exact bigSep_eq_bigSepL_of_eq [main_arg0, main_arg1, main_arg2, main_call0_v0] arrRefs_eq (by decide) _

/-- The launch's four buffers, whole, make the pipeline's arrays at their entry contents. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_open, arrBufs_open]
  iintro ⟨H0, H1, H2, H3⟩
  ihave ⟨H1a, H1b⟩ := (pointsTo_share (PosShare.mem_left_op_right fullShare)).1 $$ H1
  isplitl [H0]; · iexact H0
  isplitl [H1a]; · iexact H1a
  isplitl [H1b]; · iexact H1b
  isplitl [H2]; · iexact H2
  iexact H3

end Cert.KernelIdeal.Hand

end
-- ==== Proof.KI.Tail.lean ====
/-
  The program's last step: after the kernel, one reshape turns the 2 x 5000 x 32 array of results into
  the 10000 x 32 result.  It reads the kernel's array (held whole: the kernel wrote it) and writes the
  result buffer, which the kernel never touched; the other arrays ride along at their shares.
-/
import proofs.«123862_g86758339379236_cont_sun_m_525_17_alg».proof.Proof.KI.Exit
import proofs.«123862_g86758339379236_cont_sun_m_525_17_alg».proof.Proof.KI.Split

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The kernel names no variant. -/
abbrev 𝒱₀ : Variants := Variants.none

/-- The two buffers the reshape touches. -/
def tailS : Finset (DevRef τ sig) := {dOut, dRes}

theorem hostOps1_in : ∀ ops ∈ [hostOps1 (F := F)], ∀ op ∈ ops, op.bufs ⊆ (tailS : Finset (DevRef τ sig)) := by
  intro ops hops op hop
  rw [List.mem_singleton] at hops; subst hops
  rw [hostOps1, List.mem_singleton] at hop; subst hop
  exact (show _ = (tailS : Finset (DevRef τ sig)) from rfl).subset

theorem hostOps1_fresh : ∀ ops ∈ [hostOps1 (F := F)], ∀ op ∈ ops, op.fresh = ∅ := by
  intro ops hops op hop
  rw [List.mem_singleton] at hops; subst hops
  rw [hostOps1, List.mem_singleton] at hop; subst hop
  rfl

/-- The reshape does not write the array it reads. -/
theorem hostOps1_keeps : ∀ op ∈ hostOps1 (F := F), (dOut : DevRef τ sig) ∉ op.writes := by
  intro op hop
  rw [hostOps1, List.mem_singleton] at hop; subst hop
  rw [show (StableHlo.TRef.reshape (.of main_call0_v0 : StableHlo.TRef sig ⟨S2x5000x32, .f32⟩) (.of main_v0 : StableHlo.TRef sig ⟨S10000x32, .f32⟩) rfl shapeCasts_S2x5000x32_S10000x32 : HloOp τ sig (Elt F)).writes = {dRes} from rfl,
    Finset.mem_singleton]
  exact dOut_ne_dRes

/-- The two buffers held at the kernel's exit: the array of results at its final contents, the result
    buffer as launched; -/
theorem held_before (c : Dev nD) :
    (StableHlo.held (c.tc : Thread nD τ) tailS (Wout m c) : sProp 𝕄)
      = iprop((((c.tc : Thread nD τ).loc main_call0_v0) ↦{fullShare} (dats m 0 c).arrAt 4 cfg0.N)
          ∗ (((c.tc : Thread nD τ).loc main_v0) ↦{fullShare} V m c main_v0)) := by
  unfold StableHlo.held tailS
  rw [bigSep_insert (by rw [Finset.mem_singleton]; exact dOut_ne_dRes), bigSep_singleton, Wout_out, Wout_of_ne m c dRes dOut_ne_dRes.symm]
  rfl

/-- and after the reshape: the array of results as it was, the result buffer at the program's result. -/
theorem held_after (c : Dev nD) :
    (StableHlo.held (c.tc : Thread nD τ) tailS (StableHlo.after [hostOps1 (F := F)].flatten (Wout m c)) : sProp 𝕄)
      = iprop((((c.tc : Thread nD τ).loc main_call0_v0) ↦{fullShare} (dats m 0 c).arrAt 4 cfg0.N)
          ∗ (((c.tc : Thread nD τ).loc main_v0) ↦{fullShare} finalRes m c)) := by
  unfold StableHlo.held tailS finalRes
  rw [bigSep_insert (by rw [Finset.mem_singleton]; exact dOut_ne_dRes), bigSep_singleton]
  simp only [List.flatten_cons, List.flatten_nil, List.append_nil]
  rw [StableHlo.after_of_forall_not_mem (hostOps1 (F := F)) (Wout m c) (hostOps1_keeps), Wout_out]
  rfl

set_option backward.isDefEq.respectTransparency.types false in
/-- THE LAST STEP. From the kernel's exit (the pipeline's arrays at their final contents, the result buffer as
    launched) the reshape runs and hands back the arrays as they were and the result buffer at the program's result. -/
theorem htail (c : Dev nD) (Q' : PUnit → sProp 𝕄) :
    iprop((iprop((dats m 0 c).arrays ((dats m 0 c).arrAt · cfg0.N)
              ∗ (((c.tc : Thread nD τ).loc main_v0) ↦{fullShare} finalRes m c)) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (pcfgs (F := F)) defs₀) (Variants.lift 𝒱₀) (c.tc : Thread nD τ) none) Set.univ
          (Pipeline.chain ([hostOps1 (F := F)].map StableHlo.seq)) Q' := by
  rw [arrays_open, unscopedRest0_eq, ← List.append_nil ([hostOps1 (F := F)].map StableHlo.seq)]
  iintro ⟨Hk, Hbd, ⟨A0, A1, A2, A3, A4⟩, Hv⟩
  have hseq := Pipeline.wp_seqs_then (Ix := Unit) (Name := ℕ) (U := UR sig nD τ) (Lvl := ℕ) (pcfgs (F := F)) defs₀ 𝒱₀ c tailS [] (K := Q')
    [hostOps1 (F := F)] hostOps1_in hostOps1_fresh (Wout m c)
  iapply hseq $$ [Hbd A4 Hv]
  · rw [held_before]
    isplitl [Hbd]; · iexact Hbd
    isplitl [A4]; · iexact A4
    iexact Hv
  iintro Hb
  rw [Pipeline.chain_nil, wp_pure, held_after]
  imodintro
  iapply Hk
  icases Hb with ⟨-, B4, Bv⟩
  isplitr [Bv]
  · isplitl [A0]; · iexact A0
    isplitl [A1]; · iexact A1
    isplitl [A2]; · iexact A2
    isplitl [A3]; · iexact A3
    iexact B4
  iexact Bv

end Cert.KernelIdeal.Hand

end
-- ==== Proof.KI.Launch.lean ====
/-
  The launch: every weakly fair execution of the program, at any value instance, terminates without a
  fault; when it does, each of the pipeline's arrays holds what the proof data says (an input array what
  it held at launch, the array of results what the 25 write-backs left), and the result buffer holds the
  reshape of the array of results.

  The program is the kernel's region followed by one reshape.  Two of the kernel's windows read the same
  array, so the launch is the library's theorem that lets the certificate say how the buffers behind the
  arrays are dealt among the windows (by halves of the share, for the array read twice), continued by
  the reshape run by hand over the two buffers it touches.
-/
import proofs.«123862_g86758339379236_cont_sun_m_525_17_alg».proof.Proof.KI.Obligation
import proofs.«123862_g86758339379236_cont_sun_m_525_17_alg».proof.Proof.KI.Tail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main is the kernel's region, then the reshape: holding the unscoped buffers as launched, it reduces to the
    region continued by the reshape. -/
theorem hmain :
    Pipeline.HMainK (Ix := Unit) (Name := ℕ) (U := UR sig nD τ) (Lvl := ℕ) cfgs 0 defs₀ 𝒱₀ m (main (F := F)) (V m)
      (fun _ => Pipeline.chain ([hostOps1 (F := F)].map StableHlo.seq)) :=
  Pipeline.hmain_around cfgs 0 defs₀ 𝒱₀ m main [] [hostOps1 (F := F)] trivial trivial fun c => (main_chain c).trans rfl

/-- What the final state says of core `c`: its arrays at the proof data's final contents, the result buffer at the
    reshape of the array of results. -/
def RunPost (r : PUnit × MemSt nD τ sig (Elt F)) : Prop :=
  ∀ c : Dev nD, (∀ w, r.2.mem ((cfg0.spec w).arr.view.loc (c.tc : Thread nD τ)) = (dats m 0 c).arrAt w cfg0.N)
    ∧ r.2.mem ((c.tc : Thread nD τ).loc main_v0) = finalRes m c

set_option backward.isDefEq.respectTransparency.types false in
/-- THE RUN. -/
theorem run_main : θ_run (defs (F := F)) (onTc (τ := τ) (main (F := F))) ⟨m, fun _ => 0, ρ⟩ (RunPost m) :=
  Pipeline.θ_run_region_noSem_pf_tail (pcfgs (F := F)) (fun p => (cfgs p).toPCfg_adm) (dats m) () cellOf_inj (0 : Fin 1)
    winFacts₀0 (Pipeline.PreFacts.none _) emb₁ defs₀ 𝒱₀ m ρ main (fun _ => Pipeline.chain ([hostOps1 (F := F)].map StableHlo.seq))
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m) (hsplit := hsplit m) (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => (((c.tc : Thread nD τ).loc main_v0) ↦{fullShare} finalRes m c : sProp 𝕄))
    (hX := fun c => by
      rw [Pipeline.unscopedRestP_none]
      iintro H; isplitr; · iempintro
      iexact H)
    (hin := fun c => by
      iintro ⟨-, -, HR⟩
      iapply (hin m c); iexact HR)
    (hout := fun c => by
      iintro H; isplitr; · iempintro
      iapply (hout m c); iexact H)
    (htail := htail m)
    (QY := fun c s => s.mem ((c.tc : Thread nD τ).loc main_v0) = finalRes m c)
    (hY := fun c s' => by
      iintro ⟨-, HZ, HSI⟩
      imodintro
      ihave H := (pointsTo_read_all ({()} : Finset Unit) (fun _ => (c.tc : Thread nD τ).loc main_v0) (fun _ => finalRes m c) s') $$ [HZ HSI]
      · rw [bigSep_singleton]; isplitl [HZ] <;> iassumption
      icases H with ⟨%h, HSI⟩
      isplitr; · ipureintro; exact h () (Finset.mem_singleton_self _)
      iexact HSI)
    (hQ := fun s h c => ⟨(h c).1, (h c).2.2⟩)

/-- info: 'Cert.KernelIdeal.Hand.run_main' depends on axioms: [propext, Classical.choice, Quot.sound] -/
#guard_msgs in #print axioms run_main

/-- An input window's array is never written: it ends as launched. -/
theorem arg0_kept (c : Dev nD) : (dats m 0 c).arrAt 0 cfg0.N = m ((c.tc : Thread nD τ).loc main_arg0) :=
  ((dats m 0 c).arrAt_in 0 rfl _).trans (A_eq m c 0)
theorem arg1_kept (c : Dev nD) : (dats m 0 c).arrAt 1 cfg0.N = m ((c.tc : Thread nD τ).loc main_arg1) :=
  ((dats m 0 c).arrAt_in 1 rfl _).trans (A_eq m c 1)
theorem arg2_kept (c : Dev nD) : (dats m 0 c).arrAt 3 cfg0.N = m ((c.tc : Thread nD τ).loc main_arg2) :=
  ((dats m 0 c).arrAt_in 3 rfl _).trans (A_eq m c 3)

/-- THE FRAME: the program runs to its end without a fault and leaves its three argument arrays as launched. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (arg0_kept m c), ((h c).1 1).trans (arg1_kept m c), ((h c).1 3).trans (arg2_kept m c)⟩) (run_main m ρ)

end Cert.KernelIdeal.Hand

end
-- ==== Proof.Spec.lean ====
/-
  What both programs compute, as one function of the three argument arrays, index by index:

      G features adj W (r, e)  =  sum over k of  adj (r, k) * ( sum over f of  features (k, f) * W (f, e) )

  the adjacency matrix times the product of the feature matrix and the weights, associated that way
  round.  Over the extended reals a product of sums is NOT freely re-associated, so the grouping is
  part of the specification: both the kernel and the reference form  features * W  first.
-/
import Idealize.ShloMosaic.PureOps.Ideal
import Idealize.ShloMosaic.Lib.ValueIdx

noncomputable section

namespace Cert.Spec

open Idealize.ShloMosaic

abbrev SF : Shape := ⟨2, ![10000, 128]⟩
abbrev SA : Shape := ⟨2, ![10000, 10000]⟩
abbrev SW : Shape := ⟨2, ![128, 32]⟩
abbrev SO : Shape := ⟨2, ![10000, 32]⟩

/-- Row `r`, column `f` of the feature matrix; -/
abbrev ixF (r : Fin 10000) (f : Fin 128) : SF.Idx := fun a => match a with
  | ⟨0, _⟩ => ⟨r.val, r.isLt⟩
  | ⟨1, _⟩ => ⟨f.val, f.isLt⟩
/-- row `r`, column `k` of the adjacency matrix; -/
abbrev ixA (r : Fin 10000) (k : Fin 10000) : SA.Idx := fun a => match a with
  | ⟨0, _⟩ => ⟨r.val, r.isLt⟩
  | ⟨1, _⟩ => ⟨k.val, k.isLt⟩
/-- row `f`, column `e` of the weights; -/
abbrev ixW (f : Fin 128) (e : Fin 32) : SW.Idx := fun a => match a with
  | ⟨0, _⟩ => ⟨f.val, f.isLt⟩
  | ⟨1, _⟩ => ⟨e.val, e.isLt⟩
/-- row `r`, column `e` of the result. -/
abbrev ixO (r : Fin 10000) (e : Fin 32) : SO.Idx := fun a => match a with
  | ⟨0, _⟩ => ⟨r.val, r.isLt⟩
  | ⟨1, _⟩ => ⟨e.val, e.isLt⟩

/-- The projection  features * W  at row `k`, column `e`. -/
def P (feat : SF.Idx → EReal) (W : SW.Idx → EReal) (k : Fin 10000) (e : Fin 32) : EReal :=
  ∑ f : Fin 128, feat (ixF k f) * W (ixW f e)

/-- The result: adjacency times projection. -/
def G (feat : SF.Idx → EReal) (adj : SA.Idx → EReal) (W : SW.Idx → EReal) : SO.Idx → EReal :=
  fun i => ∑ k : Fin 10000, adj (ixA ⟨(i 0).val, (i 0).isLt⟩ k) * P feat W k ⟨(i 1).val, (i 1).isLt⟩

/-! ## The same, as the kernel lays it out

The kernel writes its results as two streams of 5000 rows: stream `s`, row `q` is result row
`s * 5000 + q`.  A reshape, which moves no element, then reads the 2 x 5000 x 32 array as 10000 x 32. -/

abbrev SK : Shape := ⟨3, ![2, 5000, 32]⟩

/-- Stream `s`, row `q`, column `e` of the kernel's array of results. -/
abbrev ixK (s : Fin 2) (q : Fin 5000) (e : Fin 32) : SK.Idx := fun a => match a with
  | ⟨0, _⟩ => ⟨s.val, s.isLt⟩
  | ⟨1, _⟩ => ⟨q.val, q.isLt⟩
  | ⟨2, _⟩ => ⟨e.val, e.isLt⟩

/-- The result row that stream `s`, row `q` holds. -/
def rowOf (s : Fin 2) (q : Fin 5000) : Fin 10000 := ⟨s.val * 5000 + q.val, by have := s.isLt; have := q.isLt; omega⟩

/-- The kernel's array of results: the result, two streams of 5000 rows. -/
def Gk (feat : SF.Idx → EReal) (adj : SA.Idx → EReal) (W : SW.Idx → EReal) : SK.Idx → EReal :=
  fun y => ∑ k : Fin 10000, adj (ixA (rowOf ⟨(y 0).val, (y 0).isLt⟩ ⟨(y 1).val, (y 1).isLt⟩) k) * P feat W k ⟨(y 2).val, (y 2).isLt⟩

end Cert.Spec

end
-- ==== Proof.KI.OutArr.lean ====
/-
  The kernel's array of results, at the ideal instance, after all 25 points.

  Over the extended reals every operation is exact, so each product the body forms is, element by element, the plain
  sum of products: the projection kept from the first point is  features * W,  and a slab of results is a band of 200
  rows of the adjacency matrix times that projection.  Point t holds rows 200 t … 200 t + 199 and rows
  200 (t + 25) … 200 (t + 25) + 199 of the adjacency matrix and writes the two slabs at rows 200 t … 200 t + 199 of
  streams 0 and 1 of the 2 x 5000 x 32 array; since  200 (t + 25) + j = 5000 + (200 t + j),  that is block t of the one
  array  (s, q, e) ↦ row s * 5000 + q, column e of  adj * (features * W).  The 25 blocks tile the array (row q lies in
  block q / 200), so after the last write-back the array is that function.
-/
import proofs.«123862_g86758339379236_cont_sun_m_525_17_alg».proof.Proof.KI.Data
import proofs.«123862_g86758339379236_cont_sun_m_525_17_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ)

namespace OutArr

/-! ## The two products, element by element -/

/-- The operand indices of a band times the projection: at result (r, e) and contraction index k they are (r, k) and
    (k, e), coordinate by coordinate. -/
theorem lhsBand_0 (i : S200x32.Idx) (q : dot_S200x10000_S10000x32_S200x32_1_0_0_1_n_n.contr.Idx) :
    (dot_S200x10000_S10000x32_S200x32_1_0_0_1_n_n.lhsIdx i q 0).val = (i 0).val := by
  unfold DotDims.lhsIdx
  rw [dif_neg (show ¬(0 : Fin S200x10000.rank) ∈ dot_S200x10000_S10000x32_S200x32_1_0_0_1_n_n.lhsBatch by decide), dif_pos (show (0 : Fin S200x10000.rank) ∈ dot_S200x10000_S10000x32_S200x32_1_0_0_1_n_n.lhsNonContracting by decide)]
  rfl
theorem lhsBand_1 (i : S200x32.Idx) (q : dot_S200x10000_S10000x32_S200x32_1_0_0_1_n_n.contr.Idx) :
    (dot_S200x10000_S10000x32_S200x32_1_0_0_1_n_n.lhsIdx i q 1).val = (q ⟨0, by decide⟩).val :=
  dot_S200x10000_S10000x32_S200x32_1_0_0_1_n_n.lhsIdx_val_of_single rfl i q
theorem rhsBand_0 (i : S200x32.Idx) (q : dot_S200x10000_S10000x32_S200x32_1_0_0_1_n_n.contr.Idx) :
    (dot_S200x10000_S10000x32_S200x32_1_0_0_1_n_n.rhsIdx i q 0).val = (q ⟨0, by decide⟩).val :=
  dot_S200x10000_S10000x32_S200x32_1_0_0_1_n_n.rhsIdx_val_of_single rfl i q
theorem rhsBand_1 (i : S200x32.Idx) (q : dot_S200x10000_S10000x32_S200x32_1_0_0_1_n_n.contr.Idx) :
    (dot_S200x10000_S10000x32_S200x32_1_0_0_1_n_n.rhsIdx i q 1).val = (i 1).val := by
  unfold DotDims.rhsIdx
  rw [dif_neg (show ¬(1 : Fin S10000x32.rank) ∈ dot_S200x10000_S10000x32_S200x32_1_0_0_1_n_n.rhsBatch by decide), dif_pos (show (1 : Fin S10000x32.rank) ∈ dot_S200x10000_S10000x32_S200x32_1_0_0_1_n_n.rhsNonContracting by decide)]
  rfl

/-- Row `r`, column `k` of a band of 200 rows of the adjacency matrix; -/
abbrev ixB (r : Fin 200) (k : Fin 10000) : S200x10000.Idx := fun a => match a with
  | ⟨0, _⟩ => ⟨r.val, r.isLt⟩
  | ⟨1, _⟩ => ⟨k.val, k.isLt⟩
/-- row `k`, column `e` of the projection. -/
abbrev ixP (k : Fin 10000) (e : Fin 32) : S10000x32.Idx := fun a => match a with
  | ⟨0, _⟩ => ⟨k.val, k.isLt⟩
  | ⟨1, _⟩ => ⟨e.val, e.isLt⟩

/-- A band times the projection into a zero accumulator, at row `i 0`, column `i 1`: the sum over the 10000 nodes. -/
theorem bandMul_apply (a : Vec Ideal S200x10000 .f32) (s : Vec Ideal S10000x32 .f32) (i : S200x32.Idx) :
    matmul (F := Ideal) (φ₁ := .f32) (φ₂ := .f32) dot_S200x10000_S10000x32_S200x32_1_0_0_1_n_n none a s (constant (F := Ideal) S200x32 .f32 0x00000000#32) i
      = ∑ k : Fin 10000, a (ixB ⟨(i 0).val, (i 0).isLt⟩ k) * s (ixP k ⟨(i 1).val, (i 1).isLt⟩) := by
  refine (Ideal.matmul_constant_zero_apply dot_S200x10000_S10000x32_S200x32_1_0_0_1_n_n none a s i).trans ?_
  rw [← Equiv.sum_comp (ValueIdx.contrEquiv1 dot_S200x10000_S10000x32_S200x32_1_0_0_1_n_n 10000 rfl rfl).symm]
  refine Finset.sum_congr rfl fun k _ => ?_
  have hk := ValueIdx.contrEquiv1_symm_val dot_S200x10000_S10000x32_S200x32_1_0_0_1_n_n 10000 rfl rfl k
  have el : dot_S200x10000_S10000x32_S200x32_1_0_0_1_n_n.lhsIdx i ((ValueIdx.contrEquiv1 dot_S200x10000_S10000x32_S200x32_1_0_0_1_n_n 10000 rfl rfl).symm k) = ixB ⟨(i 0).val, (i 0).isLt⟩ k := funext fun a => Fin.ext (by
    match a with
    | ⟨0, _⟩ => exact lhsBand_0 _ _
    | ⟨1, _⟩ => exact (lhsBand_1 _ _).trans hk)
  have er : dot_S200x10000_S10000x32_S200x32_1_0_0_1_n_n.rhsIdx i ((ValueIdx.contrEquiv1 dot_S200x10000_S10000x32_S200x32_1_0_0_1_n_n 10000 rfl rfl).symm k) = ixP k ⟨(i 1).val, (i 1).isLt⟩ := funext fun a => Fin.ext (by
    match a with
    | ⟨0, _⟩ => exact (rhsBand_0 _ _).trans hk
    | ⟨1, _⟩ => exact rhsBand_1 _ _)
  rw [el, er]

/-- The operand indices of the features times the weights: at result (k, e) and contraction index f they are (k, f) and
    (f, e), coordinate by coordinate. -/
theorem lhsProj_0 (i : S10000x32.Idx) (q : dot_S10000x128_S128x32_S10000x32_1_0_0_1_n_n.contr.Idx) :
    (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
theorem lhsProj_1 (i : S10000x32.Idx) (q : dot_S10000x128_S128x32_S10000x32_1_0_0_1_n_n.contr.Idx) :
    (dot_S10000x128_S128x32_S10000x32_1_0_0_1_n_n.lhsIdx i q 1).val = (q ⟨0, by decide⟩).val :=
  dot_S10000x128_S128x32_S10000x32_1_0_0_1_n_n.lhsIdx_val_of_single rfl i q
theorem rhsProj_0 (i : S10000x32.Idx) (q : dot_S10000x128_S128x32_S10000x32_1_0_0_1_n_n.contr.Idx) :
    (dot_S10000x128_S128x32_S10000x32_1_0_0_1_n_n.rhsIdx i q 0).val = (q ⟨0, by decide⟩).val :=
  dot_S10000x128_S128x32_S10000x32_1_0_0_1_n_n.rhsIdx_val_of_single rfl i q
theorem rhsProj_1 (i : S10000x32.Idx) (q : dot_S10000x128_S128x32_S10000x32_1_0_0_1_n_n.contr.Idx) :
    (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- The features times the weights into a zero accumulator, at row `i 0`, column `i 1`: the sum over the 128 features. -/
theorem projMul_apply (x : Vec Ideal S10000x128 .f32) (w : Vec Ideal S128x32 .f32) (i : S10000x32.Idx) :
    matmul (F := Ideal) (φ₁ := .f32) (φ₂ := .f32) dot_S10000x128_S128x32_S10000x32_1_0_0_1_n_n none x w (constant (F := Ideal) S10000x32 .f32 0x00000000#32) i
      = ∑ f : Fin 128, x (Cert.Spec.ixF ⟨(i 0).val, (i 0).isLt⟩ f) * w (Cert.Spec.ixW f ⟨(i 1).val, (i 1).isLt⟩) := by
  refine (Ideal.matmul_constant_zero_apply dot_S10000x128_S128x32_S10000x32_1_0_0_1_n_n none x w i).trans ?_
  rw [← Equiv.sum_comp (ValueIdx.contrEquiv1 dot_S10000x128_S128x32_S10000x32_1_0_0_1_n_n 128 rfl rfl).symm]
  refine Finset.sum_congr rfl fun k _ => ?_
  have hk := ValueIdx.contrEquiv1_symm_val dot_S10000x128_S128x32_S10000x32_1_0_0_1_n_n 128 rfl rfl k
  have el : dot_S10000x128_S128x32_S10000x32_1_0_0_1_n_n.lhsIdx i ((ValueIdx.contrEquiv1 dot_S10000x128_S128x32_S10000x32_1_0_0_1_n_n 128 rfl rfl).symm k) = Cert.Spec.ixF ⟨(i 0).val, (i 0).isLt⟩ k := funext fun a => Fin.ext (by
    match a with
    | ⟨0, _⟩ => exact lhsProj_0 _ _
    | ⟨1, _⟩ => exact (lhsProj_1 _ _).trans hk)
  have er : dot_S10000x128_S128x32_S10000x32_1_0_0_1_n_n.rhsIdx i ((ValueIdx.contrEquiv1 dot_S10000x128_S128x32_S10000x32_1_0_0_1_n_n 128 rfl rfl).symm k) = Cert.Spec.ixW k ⟨(i 1).val, (i 1).isLt⟩ := funext fun a => Fin.ext (by
    match a with
    | ⟨0, _⟩ => exact (rhsProj_0 _ _).trans hk
    | ⟨1, _⟩ => exact rhsProj_1 _ _)
  rw [el, er]

/-! ## What the body stores, element by element -/

/-- The zero offsets, however spelt. -/
theorem zeros2 : (![0, 0] : Fin 2 → Nat) = fun _ => 0 := funext fun a => by fin_cases a <;> rfl

/-- The projection the kernel keeps is  features * W  of the specification. -/
theorem support_apply (x : Vec Ideal S10000x128 .f32) (w : Vec Ideal S128x32 .f32) (k : Fin 10000) (e : Fin 32) :
    support (F := Ideal) x w (ixP k e) = Cert.Spec.P x w k e := by
  unfold support supPieces
  rw [View.canon_unit_zero zeros2]
  unfold k0_pay1
  refine (congrFun (shapeCast_self _ _) (ixP k e)).trans ?_
  exact projMul_apply x w (ixP k e)

/-- A slab of results, as stored with a leading axis of one: row `y 1`, column `y 2` of band times projection. -/
theorem slab_apply (a : Vec Ideal S200x10000 .f32) (s : Vec Ideal S10000x32 .f32) (y : S1x200x32.Idx) :
    k0_pay2 (F := Ideal) a s y = ∑ k : Fin 10000, a (ixB ⟨(y 1).val, (y 1).isLt⟩ k) * s (ixP k ⟨(y 2).val, (y 2).isLt⟩) := by
  unfold k0_pay2
  refine (shapeCast_addUnit_apply _ _ _ y).trans ?_
  exact bandMul_apply a s (fun a => y a.succ)

/-- The same for the second slab. -/
theorem slab_apply' (a : Vec Ideal S200x10000 .f32) (s : Vec Ideal S10000x32 .f32) (y : S1x200x32.Idx) :
    k0_pay3 (F := Ideal) a s y = ∑ k : Fin 10000, a (ixB ⟨(y 1).val, (y 1).isLt⟩ k) * s (ixP k ⟨(y 2).val, (y 2).isLt⟩) :=
  slab_apply a s y

/-- Row `r`, column `e` of a band times the projection. -/
def bandRow (a : Vec Ideal S200x10000 .f32) (s : Vec Ideal S10000x32 .f32) (r : Fin 200) (e : Fin 32) : EReal :=
  ∑ k : Fin 10000, a (ixB r k) * s (ixP k e)

/-- The block of results a point leaves, element by element: stream 0 is the first band times the projection,
    stream 1 the second. -/
def slabs (a1 a2 : Vec Ideal S200x10000 .f32) (s : Vec Ideal S10000x32 .f32) : S2x200x32.Idx → EReal := fun y =>
  if (y 0).val = 0 then bandRow a1 s ⟨(y 1).val, (y 1).isLt⟩ ⟨(y 2).val, (y 2).isLt⟩
  else bandRow a2 s ⟨(y 1).val, (y 1).isLt⟩ ⟨(y 2).val, (y 2).isLt⟩

/-- The store at stream 1 holds the second band's rows; -/
theorem slab1_emb (a1 a2 : Vec Ideal S200x10000 .f32) (s : Vec Ideal S10000x32 .f32) (x : S1x200x32.Idx) :
    k0_pay3 (F := Ideal) a2 s x
      = slabs a1 a2 s ((Rect.unit (s := S2x200x32) ![1, 0, 0] S1x200x32.size inb_S2x200x32_S1x200x32_1_0_0).emb x) := by
  refine (slab_apply' a2 s x).trans ?_
  unfold slabs
  have h0 : ((Rect.unit (s := S2x200x32) ![1, 0, 0] S1x200x32.size inb_S2x200x32_S1x200x32_1_0_0).emb x 0).val = 1 + 1 * (x 0).val := rfl
  have h1 : ((Rect.unit (s := S2x200x32) ![1, 0, 0] S1x200x32.size inb_S2x200x32_S1x200x32_1_0_0).emb x 1).val = 0 + 1 * (x 1).val := rfl
  have h2 : ((Rect.unit (s := S2x200x32) ![1, 0, 0] S1x200x32.size inb_S2x200x32_S1x200x32_1_0_0).emb x 2).val = 0 + 1 * (x 2).val := rfl
  rw [if_neg (by omega)]
  unfold bandRow
  refine Finset.sum_congr rfl fun k _ => ?_
  congr 2
  · exact congrArg (fun r => ixB r k) (Fin.ext (h1.trans (by omega : 0 + 1 * (x 1).val = (x 1).val)).symm)
  · exact congrArg (fun e => ixP k e) (Fin.ext (h2.trans (by omega : 0 + 1 * (x 2).val = (x 2).val)).symm)

/-- the store at stream 0 the first band's. -/
theorem slab0_emb (a1 a2 : Vec Ideal S200x10000 .f32) (s : Vec Ideal S10000x32 .f32) (x : S1x200x32.Idx) :
    k0_pay2 (F := Ideal) a1 s x
      = slabs a1 a2 s ((Rect.unit (s := S2x200x32) ![0, 0, 0] S1x200x32.size inb_S2x200x32_S1x200x32_0_0_0).emb x) := by
  refine (slab_apply a1 s x).trans ?_
  unfold slabs
  have hx : (x 0).val < 1 := (x 0).isLt
  have h0 : ((Rect.unit (s := S2x200x32) ![0, 0, 0] S1x200x32.size inb_S2x200x32_S1x200x32_0_0_0).emb x 0).val = 0 + 1 * (x 0).val := rfl
  have h1 : ((Rect.unit (s := S2x200x32) ![0, 0, 0] S1x200x32.size inb_S2x200x32_S1x200x32_0_0_0).emb x 1).val = 0 + 1 * (x 1).val := rfl
  have h2 : ((Rect.unit (s := S2x200x32) ![0, 0, 0] S1x200x32.size inb_S2x200x32_S1x200x32_0_0_0).emb x 2).val = 0 + 1 * (x 2).val := rfl
  rw [if_pos (by omega)]
  unfold bandRow
  refine Finset.sum_congr rfl fun k _ => ?_
  congr 2
  · exact congrArg (fun r => ixB r k) (Fin.ext (h1.trans (by omega : 0 + 1 * (x 1).val = (x 1).val)).symm)
  · exact congrArg (fun e => ixP k e) (Fin.ext (h2.trans (by omega : 0 + 1 * (x 2).val = (x 2).val)).symm)

/-- So the block a point leaves is the two slabs, whichever store an element came from. -/
theorem outBlk_apply (a1 a2 : Vec Ideal S200x10000 .f32) (s : Vec Ideal S10000x32 .f32) (y : S2x200x32.Idx) :
    outBlk (F := Ideal) a1 a2 s y = slabs a1 a2 s y := by
  unfold outBlk
  refine View.canon_apply_of_pieces (slabs a1 a2 s) (outPieces a1 a2 s) ?_ y (outCover a1 a2 s y)
  intro p hp x
  unfold outPieces at hp
  rcases List.mem_cons.mp hp with rfl | hp
  · exact slab1_emb a1 a2 s x
  · rcases List.mem_singleton.mp hp with rfl
    exact slab0_emb a1 a2 s x

/-! ## The blocks the windows hold -/

/-- The block indices, decided over the 25 points: the windows of the features and of the weights stay at block (0, 0);
    the two bands of the adjacency matrix are bands t and t + 25; the block of results is block t of both streams. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val + 25 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = t.val ∧ win0_4.index t (2 : Fin 3) = 0 :=
  (by decide +kernel : ∀ t : Fin grid0.N, _)

/-- The first window's block is the whole feature matrix; -/
theorem feat_apply (c : Dev nD) (t : Fin cfg0.N) (y : S10000x128.Idx) :
    (iblk m c 0 t : Vec Ideal S10000x128 .f32) y = (m ((c.tc : Thread nD τ).loc main_arg0) : S10000x128.Idx → EReal) y := by
  obtain ⟨e0, e1, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 2) * 10000 + 1 * (y 0).val = (y 0).val; rw [e0]; omega
  | ⟨1, _⟩ => show win0_0.index t (1 : Fin 2) * 128 + 1 * (y 1).val = (y 1).val; rw [e1]; omega

/-- the fourth window's the whole weight matrix; -/
theorem wts_apply (c : Dev nD) (t : Fin cfg0.N) (y : S128x32.Idx) :
    (iblk m c 3 t : Vec Ideal S128x32 .f32) y = (m ((c.tc : Thread nD τ).loc main_arg2) : S128x32.Idx → EReal) y := by
  obtain ⟨-, -, -, -, -, -, e0, e1, -⟩ := idx_facts t
  unfold iblk
  rw [View.read_apply]
  show V m c main_arg2 _ = m (c.tc.loc main_arg2) _
  unfold V
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 32 + 1 * (y 1).val = (y 1).val; rw [e1]; omega

/-- the second window's block at point t is rows 200 t … 200 t + 199 of the adjacency matrix; -/
theorem band1_apply (c : Dev nD) (t : Fin cfg0.N) (r : Fin 200) (k : Fin 10000) (i : S10000x10000.Idx)
    (hi0 : (i 0).val = 200 * t.val + r.val) (hi1 : (i 1).val = k.val) :
    (iblk m c 1 t : Vec Ideal S200x10000 .f32) (ixB r k) = (m ((c.tc : Thread nD τ).loc main_arg1) : S10000x10000.Idx → EReal) i := by
  obtain ⟨-, -, e0, e1, -⟩ := idx_facts t
  unfold iblk
  rw [View.read_apply]
  show V m c main_arg1 _ = m (c.tc.loc main_arg1) _
  unfold V
  congr 1
  funext a
  apply Fin.ext
  match a with
  | ⟨0, _⟩ => show win0_1.index t (0 : Fin 2) * 200 + 1 * r.val = (i 0).val; rw [e0, hi0]; omega
  | ⟨1, _⟩ => show win0_1.index t (1 : Fin 2) * 10000 + 1 * k.val = (i 1).val; rw [e1, hi1]; omega

/-- the third window's is rows 200 (t + 25) … 200 (t + 25) + 199 of the same matrix. -/
theorem band2_apply (c : Dev nD) (t : Fin cfg0.N) (r : Fin 200) (k : Fin 10000) (i : S10000x10000.Idx)
    (hi0 : (i 0).val = 200 * (t.val + 25) + r.val) (hi1 : (i 1).val = k.val) :
    (iblk m c 2 t : Vec Ideal S200x10000 .f32) (ixB r k) = (m ((c.tc : Thread nD τ).loc main_arg1) : S10000x10000.Idx → EReal) i := by
  obtain ⟨-, -, -, -, e0, e1, -⟩ := idx_facts t
  unfold iblk
  rw [View.read_apply]
  show V m c main_arg1 _ = m (c.tc.loc main_arg1) _
  unfold V
  congr 1
  funext a
  apply Fin.ext
  match a with
  | ⟨0, _⟩ => show win0_2.index t (0 : Fin 2) * 200 + 1 * r.val = (i 0).val; rw [e0, hi0]; omega
  | ⟨1, _⟩ => show win0_2.index t (1 : Fin 2) * 10000 + 1 * k.val = (i 1).val; rw [e1, hi1]; omega

/-! ## From the blocks to the array -/

/-- A point's block of results against the specification: if the two bands are rows 200 t … and 200 (t + 25) … of the
    adjacency matrix and the kept buffer holds the projection, then stream `y 0`, row `y 1`, column `y 2` of the
    block is the specification's array at stream `y 0`, row `200 t + y 1`, column `y 2`:
    `200 (t + 25) + j = 5000 + (200 t + j)`. -/
theorem block_eq (feat : Cert.Spec.SF.Idx → EReal) (adj : Cert.Spec.SA.Idx → EReal) (W : Cert.Spec.SW.Idx → EReal)
    (t : ℕ) (ht : t < 25) (a1 a2 : Vec Ideal S200x10000 .f32) (s : Vec Ideal S10000x32 .f32)
    (h1 : ∀ (r : Fin 200) (k : Fin 10000), a1 (ixB r k) = adj (Cert.Spec.ixA ⟨200 * t + r.val, by have := r.isLt; omega⟩ k))
    (h2 : ∀ (r : Fin 200) (k : Fin 10000), a2 (ixB r k) = adj (Cert.Spec.ixA ⟨200 * (t + 25) + r.val, by have := r.isLt; omega⟩ k))
    (hs : ∀ (k : Fin 10000) (e : Fin 32), s (ixP k e) = Cert.Spec.P feat W k e)
    (y : S2x200x32.Idx) (i : Cert.Spec.SK.Idx)
    (hi0 : (i 0).val = (y 0).val) (hi1 : (i 1).val = 200 * t + (y 1).val) (hi2 : (i 2).val = (y 2).val) :
    slabs a1 a2 s y = Cert.Spec.Gk feat adj W i := by
  have hy0 : (y 0).val < 2 := (y 0).isLt
  have hy1 : (y 1).val < 200 := (y 1).isLt
  have ee : (⟨(y 2).val, (y 2).isLt⟩ : Fin 32) = ⟨(i 2).val, (i 2).isLt⟩ := Fin.ext hi2.symm
  unfold slabs Cert.Spec.Gk bandRow
  by_cases h : (y 0).val = 0
  · rw [if_pos h]
    refine Finset.sum_congr rfl fun k _ => ?_
    have er : (⟨200 * t + (y 1).val, by omega⟩ : Fin 10000) = Cert.Spec.rowOf ⟨(i 0).val, (i 0).isLt⟩ ⟨(i 1).val, (i 1).isLt⟩ :=
      Fin.ext (by show 200 * t + (y 1).val = (i 0).val * 5000 + (i 1).val; omega)
    rw [h1, hs, er, ee]
  · rw [if_neg h]
    refine Finset.sum_congr rfl fun k _ => ?_
    have er : (⟨200 * (t + 25) + (y 1).val, by omega⟩ : Fin 10000) = Cert.Spec.rowOf ⟨(i 0).val, (i 0).isLt⟩ ⟨(i 1).val, (i 1).isLt⟩ :=
      Fin.ext (by show 200 * (t + 25) + (y 1).val = (i 0).val * 5000 + (i 1).val; omega)
    rw [h2, hs, er, ee]

/-- The projection the kernel keeps, from the blocks the first and fourth windows hold at the first point, is the
    specification's projection of the feature and weight arrays. -/
theorem sup_apply (c : Dev nD) (k : Fin 10000) (e : Fin 32) :
    sup (F := Ideal) m c (ixP k e)
      = Cert.Spec.P (m ((c.tc : Thread nD τ).loc main_arg0)) (m ((c.tc : Thread nD τ).loc main_arg2)) k e := by
  unfold sup
  refine (support_apply (iblk m c 0 t0) (iblk m c 3 t0) k e).trans ?_
  unfold Cert.Spec.P
  refine Finset.sum_congr rfl fun f _ => ?_
  rw [feat_apply m c t0 (Cert.Spec.ixF k f), wts_apply m c t0 (Cert.Spec.ixW f e)]

/-- What point t writes back is its block of the specification's array. -/
theorem flushed_eq (c : Dev nD) (t : Fin cfg0.N) :
    (dats (F := Ideal) m 0 c).flushed 4 t
      = ((cfg0.win 4).blk t).view.read (Elt Ideal)
          (Cert.Spec.Gk (m ((c.tc : Thread nD τ).loc main_arg0)) (m ((c.tc : Thread nD τ).loc main_arg1)) (m ((c.tc : Thread nD τ).loc main_arg2))) := by
  show (cfg0.win 4).cut (grid0.coords t) ((dats (F := Ideal) m 0 c).after 4 t) = _
  rw [after0_4]
  have ht : t.val < 25 := lt_of_lt_of_eq t.isLt N25
  obtain ⟨-, -, -, -, -, -, -, -, e0, e1, e2⟩ := idx_facts t
  funext y
  show outBlk (F := Ideal) (iblk m c 1 t) (iblk m c 2 t) (sup m c) y
      = Cert.Spec.Gk (m ((c.tc : Thread nD τ).loc main_arg0)) (m ((c.tc : Thread nD τ).loc main_arg1)) (m ((c.tc : Thread nD τ).loc main_arg2)) (((cfg0.win 4).blk t).view.emb y)
  refine (outBlk_apply (iblk m c 1 t) (iblk m c 2 t) (sup m c) y).trans ?_
  refine block_eq (m ((c.tc : Thread nD τ).loc main_arg0)) (m ((c.tc : Thread nD τ).loc main_arg1)) (m ((c.tc : Thread nD τ).loc main_arg2))
    t.val ht (iblk m c 1 t) (iblk m c 2 t) (sup m c) ?_ ?_ ?_ y (((cfg0.win 4).blk t).view.emb y) ?_ ?_ ?_
  · intro r k; exact band1_apply m c t r k _ rfl rfl
  · intro r k; exact band2_apply m c t r k _ rfl rfl
  · intro k e; exact sup_apply m c k e
  · show win0_4.index t (0 : Fin 3) * 2 + 1 * (y 0).val = (y 0).val; rw [e0]; omega
  · show win0_4.index t (1 : Fin 3) * 200 + 1 * (y 1).val = 200 * t.val + (y 1).val; rw [e1]; omega
  · show win0_4.index t (2 : Fin 3) * 32 + 1 * (y 2).val = (y 2).val; rw [e2]; omega

/-- An index of the array is in point t's block iff each coordinate is in the block's range on its axis. -/
theorem mem_blk4 (t : Fin cfg0.N) (i : S2x5000x32.Idx) :
    i ∈ ((cfg0.win 4).blk t).view.set ↔ ∀ a : Fin 3, win0_4.index t a * S2x200x32.size a ≤ (i a).val ∧ (i a).val < win0_4.index t a * S2x200x32.size a + S2x200x32.size a := by
  show i ∈ ((View.whole main_call0_v0).slice (win0_4.rect t)).set ↔ _
  rw [View.set_slice_whole, Rect.mem_set_unit]
  exact Iff.rfl

/-- The 25 blocks cover the array: row q of either stream is in the block of point q / 200. -/
theorem covered (i : S2x5000x32.Idx) :
    ∃ t : Fin cfg0.N, (cfg0.win 4).flush t = true ∧ i ∈ ((cfg0.win 4).blk t).view.set := by
  have hi0 : (i 0).val < 2 := (i 0).isLt
  have hi1 : (i 1).val < 5000 := (i 1).isLt
  have hi2 : (i 2).val < 32 := (i 2).isLt
  obtain ⟨t, ht⟩ : ∃ t : Fin cfg0.N, t.val = (i 1).val / 200 :=
    ⟨⟨(i 1).val / 200, lt_of_lt_of_eq (by omega : (i 1).val / 200 < 25) N25.symm⟩, rfl⟩
  obtain ⟨-, -, -, -, -, -, -, -, e0, e1, e2⟩ := idx_facts t
  refine ⟨t, flush0_4 t, ?_⟩
  rw [mem_blk4]
  intro a
  match a with
  | ⟨0, _⟩ => show win0_4.index t (0 : Fin 3) * 2 ≤ (i 0).val ∧ (i 0).val < win0_4.index t (0 : Fin 3) * 2 + 2; rw [e0]; omega
  | ⟨1, _⟩ => show win0_4.index t (1 : Fin 3) * 200 ≤ (i 1).val ∧ (i 1).val < win0_4.index t (1 : Fin 3) * 200 + 200; rw [e1]; omega
  | ⟨2, _⟩ => show win0_4.index t (2 : Fin 3) * 32 ≤ (i 2).val ∧ (i 2).val < win0_4.index t (2 : Fin 3) * 32 + 32; rw [e2]; omega

end OutArr

/-- After the 25 write-backs the kernel's 2 x 5000 x 32 array holds, at stream s, row q, column e,
    result row  s * 5000 + q  of  adj * (features * W). -/
theorem outArr_eq (c : Dev nD) :
    (dats (F := Ideal) m 0 c).arrAt 4 cfg0.N
      = Cert.Spec.Gk (m ((c.tc : Thread nD τ).loc main_arg0)) (m ((c.tc : Thread nD τ).loc main_arg1)) (m ((c.tc : Thread nD τ).loc main_arg2)) :=
  (dats (F := Ideal) m 0 c).arrAt_eq_of_cover 4
    (Cert.Spec.Gk (m ((c.tc : Thread nD τ).loc main_arg0)) (m ((c.tc : Thread nD τ).loc main_arg1)) (m ((c.tc : Thread nD τ).loc main_arg2)))
    (fun t _ => OutArr.flushed_eq m c t) (fun i => OutArr.covered i)

end Cert.KernelIdeal.Hand

end
-- ==== Proof.KI.Reshape.lean ====
/-
  The program's last step read at an index: the reshape of the kernel's 2 x 5000 x 32 array into the
  10000 x 32 result moves no element; result row r is stream r / 5000, row r % 5000.
-/
import proofs.«123862_g86758339379236_cont_sun_m_525_17_alg».proof.Proof.KI.Exit
import proofs.«123862_g86758339379236_cont_sun_m_525_17_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ)

/-- The program's last step is one reshape: its result is the kernel's array of results read at the
    10000 x 32 shape, in row-major order. -/
theorem finalRes_eq (c : Dev nD) :
    finalRes (F := Ideal) m c
      = fun i => shapeCast S10000x32 ((dats (F := Ideal) m 0 c).arrAt 4 cfg0.N) shapeCasts_S2x5000x32_S10000x32 i := by
  unfold finalRes
  after_results
  show (fun i => shapeCast S10000x32 (Wout m c dOut) shapeCasts_S2x5000x32_S10000x32 i) = _
  rw [Wout_out]

/-- Where the kernel's array holds result index `(r, e)`: stream `r / 5000`, row `r % 5000`, column `e`. -/
def kIdx (i : Cert.Spec.SO.Idx) : Cert.Spec.SK.Idx := fun a => match a with
  | ⟨0, _⟩ => ⟨(i 0).val / 5000, by have h0 : (i 0).val < 10000 := (i 0).isLt; show (i 0).val / 5000 < 2; omega⟩
  | ⟨1, _⟩ => ⟨(i 0).val % 5000, Nat.mod_lt _ (by decide)⟩
  | ⟨2, _⟩ => ⟨(i 1).val, (i 1).isLt⟩

/-- The two indices have the same row-major position:  (5000 (r / 5000) + r % 5000) 32 + e = 32 r + e. -/
theorem kIdx_rowMajor (i : Cert.Spec.SO.Idx) :
    (Cert.Spec.SK.rowMajor (kIdx i)).val = (Cert.Spec.SO.rowMajor i).val := by
  have h0 : (i 0).val < 10000 := (i 0).isLt
  rw [Shape.rowMajor_val_three, Shape.rowMajor_val_two]
  show ((i 0).val / 5000 * 5000 + (i 0).val % 5000) * 32 + (i 1).val = (i 0).val * 32 + (i 1).val
  omega

/-- Stream `r / 5000`, row `r % 5000` holds result row `r`:  (r / 5000) 5000 + r % 5000 = r. -/
theorem rowOf_kIdx (i : Cert.Spec.SO.Idx) :
    Cert.Spec.rowOf ⟨(kIdx i 0).val, (kIdx i 0).isLt⟩ ⟨(kIdx i 1).val, (kIdx i 1).isLt⟩ = ⟨(i 0).val, (i 0).isLt⟩ := by
  have h0 : (i 0).val < 10000 := (i 0).isLt
  refine Fin.ext ?_
  show (i 0).val / 5000 * 5000 + (i 0).val % 5000 = (i 0).val
  omega

/-- The two-stream layout read there is the result at `(r, e)`. -/
theorem Gk_kIdx (feat : Cert.Spec.SF.Idx → EReal) (adj : Cert.Spec.SA.Idx → EReal) (W : Cert.Spec.SW.Idx → EReal)
    (i : Cert.Spec.SO.Idx) : Cert.Spec.Gk feat adj W (kIdx i) = Cert.Spec.G feat adj W i := by
  show (∑ k : Fin 10000, adj (Cert.Spec.ixA (Cert.Spec.rowOf ⟨(kIdx i 0).val, (kIdx i 0).isLt⟩ ⟨(kIdx i 1).val, (kIdx i 1).isLt⟩) k)
          * Cert.Spec.P feat W k ⟨(kIdx i 2).val, (kIdx i 2).isLt⟩)
      = ∑ k : Fin 10000, adj (Cert.Spec.ixA ⟨(i 0).val, (i 0).isLt⟩ k) * Cert.Spec.P feat W k ⟨(i 1).val, (i 1).isLt⟩
  rw [rowOf_kIdx]
  rfl

/-- If the kernel's array is the specification's two-stream layout of  adj * (features * W),  the program's
    result is  adj * (features * W). -/
theorem finalRes_of_outArr (c : Dev nD) (feat : Cert.Spec.SF.Idx → EReal) (adj : Cert.Spec.SA.Idx → EReal) (W : Cert.Spec.SW.Idx → EReal)
    (h : (dats (F := Ideal) m 0 c).arrAt 4 cfg0.N = Cert.Spec.Gk feat adj W) :
    finalRes (F := Ideal) m c = Cert.Spec.G feat adj W := by
  rw [finalRes_eq, h]
  funext i
  exact (shapeCast_apply (Cert.Spec.Gk feat adj W) shapeCasts_S2x5000x32_S10000x32 i (kIdx i) (kIdx_rowMajor i)).trans
    (Gk_kIdx feat adj W i)

end Cert.KernelIdeal.Hand

end
-- ==== Proof.Ref.lean ====
/-
  The reference program's value: it multiplies the feature matrix by the weights, and the adjacency
  matrix by that product; index by index that is the specification's function.
-/
import proofs.«123862_g86758339379236_cont_sun_m_525_17_alg».proof.Proof.Gen.ReferenceIdeal.Read
import proofs.«123862_g86758339379236_cont_sun_m_525_17_alg».proof.Proof.Spec

noncomputable section

namespace Cert.ReferenceIdeal.RefValue

open Cert.ReferenceIdeal Cert.ReferenceIdeal.Gen Idealize.ShloMosaic Idealize.ShloMosaic.TcCoe Idealize.SL.Sem

/-- The reference's result (the second product, over the first) is  adj * (features * W). -/
theorem ref_eq (x0 : (⟨S10000x128, .f32⟩ : BufTy).Contents (Elt Ideal)) (x1 : (⟨S10000x10000, .f32⟩ : BufTy).Contents (Elt Ideal))
    (x2 : (⟨S128x32, .f32⟩ : BufTy).Contents (Elt Ideal)) :
    Cert.ReferenceIdeal.Read.val_main_v1 (F := Ideal) x0 x1 x2 = Cert.Spec.G x0 x1 x2 := by
  funext i
  rw [Cert.ReferenceIdeal.Read.val_main_v1_apply]
  unfold Cert.Spec.G Cert.Spec.P
  refine Finset.sum_congr rfl fun k _ => ?_
  rw [Cert.ReferenceIdeal.Read.val_main_v0_apply]
  rfl

end Cert.ReferenceIdeal.RefValue

end
-- ==== Proof.lean ====
/-
  The certificate of a fused graph-convolution kernel:  adj * (features * W)  with features 10000 x 128,
  adj 10000 x 10000, W 128 x 32.

  The kernel runs on a grid of 25 points.  At point 0 it forms the projection  features * W  into a
  buffer it keeps; at every point it multiplies two bands of 200 rows of the adjacency matrix (band t
  and band t + 25, read through two windows on the one array) by the projection and writes the two
  200 x 32 slabs into a 2 x 5000 x 32 array, which the program finally reshapes to 10000 x 32.  The
  reference forms the same two products with two whole-matrix multiplications.

  Frames.  Both printed forms of the kernel (the word-level one and the idealized one are the same
  text) run to the end from any memory, fault nowhere and leave the three argument arrays as
  launched: the body's two control cases, the proof data and the launch are stated for any value
  instance.  The reference is a straight line of two host operations.

  Values.  Over the extended reals a sum of products cannot be freely re-associated, but nothing here
  needs to be: the kernel and the reference both compute, at row r and column e,
      sum over k of  adj (r, k) * ( sum over f of  features (k, f) * W (f, e) ),
  the inner sum first.  The kernel's 25 blocks tile its array, row r of the result sits at stream
  r / 5000, row r % 5000, and the reshape moves no element.  No input needs to be finite for this.

  The idealization rewrote nothing, so there is nothing to preserve.
-/
import proofs.«123862_g86758339379236_cont_sun_m_525_17_alg».proof.Defs
import proofs.«123862_g86758339379236_cont_sun_m_525_17_alg».proof.Proof.K.Launch
import proofs.«123862_g86758339379236_cont_sun_m_525_17_alg».proof.Proof.KI.Launch
import proofs.«123862_g86758339379236_cont_sun_m_525_17_alg».proof.Proof.KI.OutArr
import proofs.«123862_g86758339379236_cont_sun_m_525_17_alg».proof.Proof.KI.Reshape
import proofs.«123862_g86758339379236_cont_sun_m_525_17_alg».proof.Proof.Ref
import proofs.«123862_g86758339379236_cont_sun_m_525_17_alg».proof.Proof.Gen.Kernel
import proofs.«123862_g86758339379236_cont_sun_m_525_17_alg».proof.Proof.Gen.KernelIdeal
import proofs.«123862_g86758339379236_cont_sun_m_525_17_alg».proof.Proof.Gen.ReferenceIdeal
import proofs.«123862_g86758339379236_cont_sun_m_525_17_alg».proof.Proof.Gen.ReferenceIdeal.Run
import proofs.«123862_g86758339379236_cont_sun_m_525_17_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Hand.frame m ρ

/-- So does the idealized one. -/
theorem frame_ki : Cert.frame_KernelIdeal := fun m ρ _ => Cert.KernelIdeal.Hand.frame m ρ

/-- The reference is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments both programs end with the result at
    adj * (features * W): the kernel's array of results is that function laid out in two streams and the
    reshape reads it back row by row; the reference's two products are that function by definition. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c =>
      ⟨((h c).2).trans (Cert.KernelIdeal.Hand.finalRes_of_outArr m c _ _ _ (Cert.KernelIdeal.Hand.outArr_eq m c)),
        ((h c).1 0).trans (Cert.KernelIdeal.Hand.arg0_kept m c),
        ((h c).1 1).trans (Cert.KernelIdeal.Hand.arg1_kept m c),
        ((h c).1 3).trans (Cert.KernelIdeal.Hand.arg2_kept m c)⟩) (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v1_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
